-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S4096x64 : Shape := ⟨2, ![4096, 64]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  main_v18

def fn {F : FTy → Type} [FloatOps F] (main_arg0 : FVec F S4x2048x4096 .f32) (main_arg1 : IVec S4096x2048 32) (main_arg2 : FVec F S4096x64 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_v13 main_v16
-- ==== Kernel.lean ====
abbrev S4x2048x4096 : Shape := ⟨3, ![4, 2048, 4096]⟩
abbrev S4096x2048 : Shape := ⟨2, ![4096, 2048]⟩
abbrev S4096x64 : Shape := ⟨2, ![4096, 64]⟩
abbrev S16x4096 : Shape := ⟨2, ![16, 4096]⟩
abbrev S4096x16 : Shape := ⟨2, ![4096, 16]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x64x64 : Shape := ⟨3, ![4096, 64, 64]⟩
abbrev S8192x4096 : Shape := ⟨2, ![8192, 4096]⟩
abbrev S512x4096 : Shape := ⟨2, ![512, 4096]⟩
abbrev S512x16 : Shape := ⟨2, ![512, 16]⟩
abbrev S512x512 : Shape := ⟨2, ![512, 512]⟩

abbrev nBuf : Space → Nat
  | .hbm => 28
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x64x64, .f32⟩
  | .hbm, ⟨19, _⟩ => ⟨S4096x4096, .f32⟩
  | .hbm, ⟨20, _⟩ => ⟨S4096x4096, .bf16⟩
  | .hbm, ⟨21, _⟩ => ⟨S4096x16, .f32⟩
  | .hbm, ⟨22, _⟩ => ⟨S4096x16, .bf16⟩
  | .hbm, ⟨23, _⟩ => ⟨S4096x16, .bf16⟩
  | .hbm, ⟨24, _⟩ => ⟨S8192x4096, .f32⟩
  | .hbm, ⟨25, _⟩ => ⟨S8192x4096, .bf16⟩
  | .hbm, ⟨26, _⟩ => ⟨S8192x4096, .f32⟩
  | .hbm, ⟨27, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .i32⟩
  | .local _ .vmem, ⟨3, _⟩ => ⟨S512x4096, .bf16⟩
  | .local _ .vmem, ⟨4, _⟩ => ⟨S4096x16, .bf16⟩
  | .local _ .vmem, ⟨5, _⟩ => ⟨S512x16, .bf16⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S4096x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  bitsLt_bf16_f32 : FTy.bits .bf16 < FTy.bits .f32
  transposes_S16x4096_S4096x16_1_0 : S16x4096.Transposes [1, 0] S4096x16
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  dot_S512x4096_S4096x16_S512x16_1_0_0_1_n_n_wf : DotDims.WF S512x4096 S4096x16 S512x16 [1] [0] [0] [1] [] []
  dot_S512x16_S512x16_S512x512_1_1_0_0_n_n_wf : DotDims.WF S512x16 S512x16 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S4096x16.size a
  hwx0_3 : ∀ i : grid0.Coords, EltTy.bits .bf16 = 32 ∨ (Rect.block (s := S4096x16) S4096x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x16.size a ≤ S4096x16.size a
  hwx0_4 : ∀ i : grid0.Coords, EltTy.bits .bf16 = 32 ∨ (Rect.block (s := S4096x16) S512x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S512x16_S512x512_1_1_0_0_n_n : DotDims S512x16 S512x16 S512x512 where
  lhsContracting := [1]
  rhsContracting := [1]
  lhsNonContracting := [0]
  rhsNonContracting := [0]
  lhsBatch := []
  rhsBatch := []
  wf := dot_S512x16_S512x16_S512x512_1_1_0_0_n_n_wf

abbrev win0_0 : Pipeline.Window sig grid0 :=
  Pipeline.Window.ofSpec (Memref.whole main_v17) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S4096x64 : Shape := ⟨2, ![4096, 64]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x4096x1 : Shape := ⟨3, ![4096, 4096, 1]⟩
abbrev S4096x64x64 : Shape := ⟨3, ![4096, 64, 64]⟩
abbrev S4096x64x1 : Shape := ⟨3, ![4096, 64, 1]⟩
abbrev S4x2048x16 : Shape := ⟨3, ![4, 2048, 16]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x2048, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S16, .f32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S4096x2048x1, .i32⟩
  | .hbm, ⟨16, _⟩ => ⟨S4096x2048x1, .i32⟩
  | .hbm, ⟨17, _⟩ => ⟨S4096x2048x2, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S4096x4096x1, .i32⟩
  | .hbm, ⟨27, _⟩ => ⟨S4096x4096, .f32⟩
  | .hbm, ⟨28, _⟩ => ⟨S4096x64x64, .f32⟩
  | .hbm, ⟨29, _⟩ => ⟨S4096x64x1, .f32⟩
  | .hbm, ⟨30, _⟩ => ⟨S4096x64x64, .f32⟩
  | .hbm, ⟨31, _⟩ => ⟨S4096x64x64, .f32⟩
  | .hbm, ⟨32, _⟩ => ⟨S4096x4096, .f32⟩
  | .hbm, ⟨33, _⟩ => ⟨S4x2048x4096, .f32⟩
  | .hbm, ⟨34, _⟩ => ⟨S4x2048x16, .f32⟩
  | .hbm, ⟨35, _⟩ => ⟨S4x2048x4096, .f32⟩
  | .hbm, ⟨36, _⟩ => ⟨S_, .f32⟩
  | .hbm, ⟨37, _⟩ => ⟨S4x2048x4096, .f32⟩
  | .hbm, ⟨38, _⟩ => ⟨S4x2048x4096, .f32⟩
  | .hbm, ⟨39, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KPieces.lean ====
/-
  What one run of the kernel body leaves behind, as values of what it loaded, at any float instance.
  On the first grid point of a row of tiles (the branch taken) the body decodes the tile of codes, scales it and
  stores it whole into the scratch; it then reads the scratch back, so its output tile is computed from the
  freshly stored weights. On every other point the branch is skipped: the scratch keeps what the point before
  left, and the output tile is computed from that.
-/
import proofs.«407890_j13838384628026_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The weights a tile of codes `x1` and a tile of scales `x2` decode to: what the taken branch stores. -/
abbrev decoded (x1 : Vec F S512x4096 .i32) (x2 : Vec F S512x4096 .bf16) : Vec F S512x4096 .bf16 :=
  k0_pay1 (k0_pay3 x1) (k0_pay4 x1) x2

/-- Branch taken: the scratch ends holding the decoded weights. -/
theorem scratch_A (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x4096 .bf16) (harg4 : arg4.IsWhole) (arg5 : Memref sig .tc .vmem S4096x16 .bf16) (harg5 : arg5.IsWhole) (arg6 : Memref sig .tc .vmem S512x16 .bf16) (harg6 : arg6.IsWhole) (arg7 : Memref sig .tc .vmem S512x512 .f32) (harg7 : arg7.IsWhole) (arg8 : Memref sig .tc .vmem S512x4096 .bf16) (harg8 : arg8.IsWhole) (hc0 : cond0_0 i)
    (x0 : Vec F S512x4096 .bf16) (x1 : Vec F S512x4096 .i32) (x2 : Vec F S512x4096 .bf16) (x3 : Vec F S4096x16 .bf16) (x4 : Vec F S512x16 .bf16) :
    sout0_A_0 c i arg2 harg2 arg3 harg3 arg4 harg4 arg5 harg5 arg6 harg6 arg7 harg7 arg8 harg8 hc0 x0 x1 x2 x3 x4 = decoded x1 x2 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg3.read_unread, harg4.read_unread, View.ld_unit_zero (S := S512x4096) hz]

/-- Branch taken: the output tile is computed from the activations' tile, the weights just decoded (read back
    from the scratch after the store) and the two adapter tiles. -/
theorem out_A (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x4096 .bf16) (harg4 : arg4.IsWhole) (arg5 : Memref sig .tc .vmem S4096x16 .bf16) (harg5 : arg5.IsWhole) (arg6 : Memref sig .tc .vmem S512x16 .bf16) (harg6 : arg6.IsWhole) (arg7 : Memref sig .tc .vmem S512x512 .f32) (harg7 : arg7.IsWhole) (arg8 : Memref sig .tc .vmem S512x4096 .bf16) (harg8 : arg8.IsWhole) (hc0 : cond0_0 i)
    (x0 : Vec F S512x4096 .bf16) (x1 : Vec F S512x4096 .i32) (x2 : Vec F S512x4096 .bf16) (x3 : Vec F S4096x16 .bf16) (x4 : Vec F S512x16 .bf16) :
    out0_A_5 c i arg2 harg2 arg3 harg3 arg4 harg4 arg5 harg5 arg6 harg6 arg7 harg7 arg8 harg8 hc0 x0 x1 x2 x3 x4 = k0_pay2 x0 (decoded x1 x2) x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread,
    harg6.read_unread, View.readCov_unit_zero (S := S512x4096) _ hz, View.ld_unit_zero (S := S512x4096) hz,
    View.ld_unit_zero (S := S4096x16) hz, View.ld_unit_zero (S := S512x16) hz]

/-- Branch skipped: the output tile is computed from the activations' tile, the weights the scratch already holds
    (`xs0`) and the two adapter tiles. -/
theorem out_B (c : Dev nD) (i : grid0.Coords) (arg2 : Memref sig .tc .vmem S512x4096 .bf16) (harg2 : arg2.IsWhole) (arg3 : Memref sig .tc .vmem S512x4096 .i32) (harg3 : arg3.IsWhole) (arg4 : Memref sig .tc .vmem S512x4096 .bf16) (harg4 : arg4.IsWhole) (arg5 : Memref sig .tc .vmem S4096x16 .bf16) (harg5 : arg5.IsWhole) (arg6 : Memref sig .tc .vmem S512x16 .bf16) (harg6 : arg6.IsWhole) (arg7 : Memref sig .tc .vmem S512x512 .f32) (harg7 : arg7.IsWhole) (arg8 : Memref sig .tc .vmem S512x4096 .bf16) (harg8 : arg8.IsWhole) (hc0 : ¬cond0_0 i)
    (x0 : Vec F S512x4096 .bf16) (x1 : Vec F S512x4096 .i32) (x2 : Vec F S512x4096 .bf16) (x3 : Vec F S4096x16 .bf16) (x4 : Vec F S512x16 .bf16) (xs0 : Vec F S512x4096 .bf16) :
    out0_B_5 c i arg2 harg2 arg3 harg3 arg4 harg4 arg5 harg5 arg6 harg6 arg7 harg7 arg8 harg8 hc0 x0 x1 x2 x3 x4 xs0 = k0_pay2 x0 xs0 x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg2.read_unread, harg8.read_unread, harg5.read_unread, harg6.read_unread,
    View.ld_unit_zero (S := S512x4096) hz, View.ld_unit_zero (S := S4096x16) hz, View.ld_unit_zero (S := S512x16) hz]

end Cert.KernelIdeal.Pieces

end
-- ==== Proof.LibConcatEntries.lean ====
/-
  A property shared by every entry of every piece of a concatenation holds of every entry of the
  concatenation: each result entry IS an entry of the piece whose span along the axis holds the
  index's axis coordinate, whichever piece that is.
-/
import Idealize.ShloMosaic.PureOps.ShapeOps

namespace Idealize.ShloMosaic

/-- Every entry of `concatenate t a xs` is an entry of one of the pieces `xs`: a predicate true of all the
    pieces' entries is true of all the result's. No position is computed; the statement does not say
    which piece or which entry. -/
theorem concatenate_forall {α : Type} {t : Shape} (a : Fin t.rank) (xs : List ((s : Shape) × (s.Idx → α)))
    (h : Shape.Concatenates (xs.map (·.1)) t a) (P : α → Prop)
    (hP : ∀ p ∈ xs, ∀ i : p.1.Idx, P (p.2 i)) (j : t.Idx) : P (concatenate t a xs h j) := by
  unfold concatenate
  exact hP _ (List.getElem_mem _) _

end Idealize.ShloMosaic
-- ==== Proof.Spec.lean ====
/-
  The mathematics both programs compute, stated once over plain index types and free of either program.

  A 4-bit code word `w` selects one of sixteen fixed levels (the NF4 table). The dequantized weight of
  output row `o` at input column `h` is that level times the scale of the 64-column block holding `h`:
      W[o, h] = level(code[o, h]) · scale[o, h / 64].
  The result at batch `p`, position `t`, output `o` is the base product plus the rank-16 adapter, the
  adapter weighted by the constant `one` (the float word of 1.0, kept as a word: it is the same word in
  both programs and is never evaluated):
      out[p, t, o] = Σ_h x[p,t,h] · W[o,h]  +  one · Σ_r (Σ_h x[p,t,h] · a[r,h]) · b[o,r].
  The codes array is carried as it is built (the low and the high nibble of each packed word laid side by
  side, then flattened): all that is ever used of it is that every entry is some word masked with 15, so
  that it lies in [0, 16) and the chain of sixteen comparisons picks exactly the table's entry.
-/
import Idealize.ShloMosaic.PureOps.Ideal
import Idealize.ShloMosaic.Lib.ValueIdx
import proofs.«407890_j13838384628026_1_alg».proof.Proof.LibConcatEntries

noncomputable section

namespace Cert.Spec

open Idealize.ShloMosaic Idealize.ShloMosaic.ValueIdx

abbrev SX : Shape := ⟨3, ![4, 2048, 4096]⟩
abbrev SQ : Shape := ⟨2, ![4096, 2048]⟩
abbrev SQ1 : Shape := ⟨3, ![4096, 2048, 1]⟩
abbrev SQ2 : Shape := ⟨3, ![4096, 2048, 2]⟩
abbrev SW : Shape := ⟨2, ![4096, 4096]⟩
abbrev SS : Shape := ⟨2, ![4096, 64]⟩
abbrev SA : Shape := ⟨2, ![16, 4096]⟩
abbrev SB : Shape := ⟨2, ![4096, 16]⟩
abbrev S0 : Shape := ⟨0, ![]⟩

/-! ## The sixteen levels -/

/-- The float word of level `n` (the table in the order of the codes; any `n ≥ 16` reads the zero word). -/
def levelWord : Nat → BitVec 32
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- The level a code word selects, as a chain of comparisons: level 0 unless the word is 1, …, 15, the later
    comparison winning (they exclude one another, so the order is immaterial). -/
def decSel (w : BitVec 32) : EReal :=
  Scalar.select (Scalar.cmpi .eq w 15#32) (Ideal.ofBits .f32 0x3F800000#32) <|
  Scalar.select (Scalar.cmpi .eq w 14#32) (Ideal.ofBits .f32 0x3F3913B3#32) <|
  Scalar.select (Scalar.cmpi .eq w 13#32) (Ideal.ofBits .f32 0x3F1007AB#32) <|
  Scalar.select (Scalar.cmpi .eq w 12#32) (Ideal.ofBits .f32 0x3EE1A4B8#32) <|
  Scalar.select (Scalar.cmpi .eq w 11#32) (Ideal.ofBits .f32 0x3EAD033A#32) <|
  Scalar.select (Scalar.cmpi .eq w 10#32) (Ideal.ofBits .f32 0x3E7C04DD#32) <|
  Scalar.select (Scalar.cmpi .eq w 9#32) (Ideal.ofBits .f32 0x3E24CAE3#32) <|
  Scalar.select (Scalar.cmpi .eq w 8#32) (Ideal.ofBits .f32 0x3DA2FAFF#32) <|
  Scalar.select (Scalar.cmpi .eq w 7#32) (Ideal.ofBits .f32 0x00000000#32) <|
  Scalar.select (Scalar.cmpi .eq w 6#32) (Ideal.ofBits .f32 0xBDBA7871#32) <|
  Scalar.select (Scalar.cmpi .eq w 5#32) (Ideal.ofBits .f32 0xBE3D353F#32) <|
  Scalar.select (Scalar.cmpi .eq w 4#32) (Ideal.ofBits .f32 0xBE91A24D#32) <|
  Scalar.select (Scalar.cmpi .eq w 3#32) (Ideal.ofBits .f32 0xBECA32A0#32) <|
  Scalar.select (Scalar.cmpi .eq w 2#32) (Ideal.ofBits .f32 0xBF066B30#32) <|
  Scalar.select (Scalar.cmpi .eq w 1#32) (Ideal.ofBits .f32 0xBF3239B1#32) <|
  Ideal.ofBits .f32 0xBF800000#32

/-- On a word below 16 the chain of comparisons picks the table's entry at that word. -/
theorem decSel_eq_level (w : BitVec 32) (h : w.toNat < 16) : decSel w = Ideal.ofBits .f32 (levelWord w.toNat) := by
  have hw : w = BitVec.ofNat 32 w.toNat :=
    BitVec.eq_of_toNat_eq (by rw [BitVec.toNat_ofNat]; exact (Nat.mod_eq_of_lt w.isLt).symm)
  generalize w.toNat = n at h hw
  subst hw
  interval_cases n <;> simp [decSel, Scalar.select, Scalar.cmpi, IntOp.cmpi, levelWord]

/-- A word masked with 15 is below 16. -/
theorem and15_lt (x : BitVec 32) : (x &&& 15#32).toNat < 16 := by
  rw [BitVec.toNat_and]
  exact Nat.lt_succ_of_le Nat.and_le_right

/-! ## The result -/

/-- The float word of 1.0 at the ideal values, kept as its word. -/
def one : EReal := Ideal.ofBits .f32 0x3F800000#32

/-- The dequantized weight: the level the code selects times the scale of the column's 64-block. -/
def weight (C : SW.Idx → BitVec 32) (s : SS.Idx → EReal) (o h : Fin 4096) : EReal :=
  decSel (C (ix2 o h)) * s (ix2 o ⟨h.val / 64, by have := h.isLt; omega⟩)

/-- The result at batch `p`, position `t`, output `o`. -/
def out (x : SX.Idx → EReal) (C : SW.Idx → BitVec 32) (s : SS.Idx → EReal) (a : SA.Idx → EReal) (b : SB.Idx → EReal)
    (p : Fin 4) (t : Fin 2048) (o : Fin 4096) : EReal :=
  (∑ h : Fin 4096, x (ix3 p t h) * weight C s o h)
    + one * ∑ r : Fin 16, (∑ h : Fin 4096, x (ix3 p t h) * a (ix2 r h)) * b (ix2 o r)

/-- The whole result array. -/
def G (x : SX.Idx → EReal) (C : SW.Idx → BitVec 32) (s : SS.Idx → EReal) (a : SA.Idx → EReal) (b : SB.Idx → EReal) :
    SX.Idx → EReal := fun i => out x C s a b (i 0) (i 1) (i 2)

theorem G_apply (x : SX.Idx → EReal) (C : SW.Idx → BitVec 32) (s : SS.Idx → EReal) (a : SA.Idx → EReal) (b : SB.Idx → EReal)
    (p : Fin 4) (t : Fin 2048) (o : Fin 4096) : G x C s a b (ix3 p t o) = out x C s a b p t o := rfl

/-! ## The codes array, as both programs build it -/

/-- The codes: per packed word its low nibble and its high nibble (the word shifted right by four, arithmetically,
    then masked), each given a trailing unit axis, laid side by side along that axis and flattened to
    4096 × 4096. The side conditions of the four layout operations are arguments: each program supplies its own. -/
def codes (q : IVec SQ 32) (h0 : S0.BroadcastsInDim SQ (![] : Fin 0 → Fin SQ.rank))
    (h1 : SQ.BroadcastsInDim SQ1 (![0, 1] : Fin 2 → Fin SQ1.rank))
    (hc : Shape.Concatenates [SQ1, SQ1] SQ2 2) (hs : SQ2.ShapeCasts SW) : IVec SW 32 :=
  shapeCast SW (concatenate SQ2 2
    [⟨SQ1, broadcastInDim SQ1 ![0, 1] h1 (andi q (broadcastInDim SQ ![] h0 (constantI S0 32 15#32)))⟩,
     ⟨SQ1, broadcastInDim SQ1 ![0, 1] h1 (andi (Host.shrsi q (broadcastInDim SQ ![] h0 (constantI S0 32 4#32)))
        (broadcastInDim SQ ![] h0 (constantI S0 32 15#32)))⟩] hc) hs

/-- Every code is below 16: it is an entry of one of the two masked arrays. -/
theorem codes_lt (q : IVec SQ 32) (h0 : S0.BroadcastsInDim SQ (![] : Fin 0 → Fin SQ.rank))
    (h1 : SQ.BroadcastsInDim SQ1 (![0, 1] : Fin 2 → Fin SQ1.rank))
    (hc : Shape.Concatenates [SQ1, SQ1] SQ2 2) (hs : SQ2.ShapeCasts SW) (j : SW.Idx) :
    (codes q h0 h1 hc hs j).toNat < 16 := by
  unfold codes shapeCast
  refine concatenate_forall (2 : Fin SQ2.rank) _ (by exact hc) (fun w : BitVec 32 => w.toNat < 16) ?_ _
  intro p hp i
  simp only [List.mem_cons, List.mem_nil_iff, or_false] at hp
  rcases hp with rfl | rfl
  · exact and15_lt _
  · exact and15_lt _

end Cert.Spec

end
-- ==== Proof.KPayload.lean ====
/-
  The kernel body's two stored values, at the ideal values, read at an index.
-/
import proofs.«407890_j13838384628026_1_alg».proof.Proof.Gen.KernelIdeal.Skeleton
import proofs.«407890_j13838384628026_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.SL.Sem
open Idealize.ShloMosaic.ValueIdx

/-! ## The scratch payload -/

/-- What the first grid point of a row of tiles stores into the scratch: at row `r`, column `h` of the tile, the
    level the code there selects times the scale there. Every operation is pointwise and the shape casts are to the
    same shape; at the ideal values the two format changes are the identity, so the chain of sixteen selects read
    at the index is the specification's chain on the code word there. -/
theorem decode_apply (v : Vec Ideal S512x4096 .i32) (sc : Vec Ideal S512x4096 .bf16) (r : Fin 512) (h : Fin 4096) :
    k0_pay1 (F := Ideal) (k0_pay3 v) (k0_pay4 v) sc (ix2 r h) = Cert.Spec.decSel (v (ix2 r h)) * sc (ix2 r h) := by
  unfold k0_pay1 k0_pay4 k0_pay3 Cert.Spec.decSel
  simp only [shapeCast_self]
  rfl

/-! ## The three products' operand indices, coordinate by coordinate

For each product the left and the right operand's index at output index `j` and contraction position `k`: the
free axis reads `j`'s coordinate, the contracted axis reads `k`'s one coordinate. -/

/-! ### 512 × 4096 by 512 × 4096, both contracted on their second axis -/

theorem lhsA_0 (j : S512x512.Idx) (k : dot_S512x4096_S512x4096_S512x512_1_1_0_0_n_n.contr.Idx) :
    (dot_S512x4096_S512x4096_S512x512_1_1_0_0_n_n.lhsIdx j k 0 : ℕ) = j 0 := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

theorem lhsA_1 (j : S512x512.Idx) (k : dot_S512x4096_S512x4096_S512x512_1_1_0_0_n_n.contr.Idx) :
    (dot_S512x4096_S512x4096_S512x512_1_1_0_0_n_n.lhsIdx j k 1 : ℕ) = k ⟨0, by decide⟩ :=
  dot_S512x4096_S512x4096_S512x512_1_1_0_0_n_n.lhsIdx_val_of_single (cl := 1) rfl j k

theorem rhsA_0 (j : S512x512.Idx) (k : dot_S512x4096_S512x4096_S512x512_1_1_0_0_n_n.contr.Idx) :
    (dot_S512x4096_S512x4096_S512x512_1_1_0_0_n_n.rhsIdx j k 0 : ℕ) = j 1 := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

theorem rhsA_1 (j : S512x512.Idx) (k : dot_S512x4096_S512x4096_S512x512_1_1_0_0_n_n.contr.Idx) :
    (dot_S512x4096_S512x4096_S512x512_1_1_0_0_n_n.rhsIdx j k 1 : ℕ) = k ⟨0, by decide⟩ :=
  dot_S512x4096_S512x4096_S512x512_1_1_0_0_n_n.rhsIdx_val_of_single (cr := 1) rfl j k

/-- Row `i` of the left operand against row `j` of the right one, into the zero accumulator: the sum over the 4096
    shared columns. -/
theorem mmA_apply (a b : FVec Ideal S512x4096 .bf16) (i j : Fin 512) :
    matmul (F := Ideal) dot_S512x4096_S512x4096_S512x512_1_1_0_0_n_n none a b (constant S512x512 .f32 0x00000000#32) (ix2 i j)
      = ∑ h : Fin 4096, a (ix2 i h) * b (ix2 j h) := by
  simp only [matmul]
  rw [Ideal.matmul_constant_zero_apply,
    ← Equiv.sum_comp (contrEquiv1 dot_S512x4096_S512x4096_S512x512_1_1_0_0_n_n 4096 rfl rfl).symm]
  refine Finset.sum_congr rfl fun h _ => ?_
  have hl : dot_S512x4096_S512x4096_S512x512_1_1_0_0_n_n.lhsIdx (ix2 i j)
      ((contrEquiv1 dot_S512x4096_S512x4096_S512x512_1_1_0_0_n_n 4096 rfl rfl).symm h) = ix2 i h :=
    Shape.idx_ext₂ (lhsA_0 _ _) ((lhsA_1 _ _).trans (contrEquiv1_symm_val _ _ _ _ h))
  have hr : dot_S512x4096_S512x4096_S512x512_1_1_0_0_n_n.rhsIdx (ix2 i j)
      ((contrEquiv1 dot_S512x4096_S512x4096_S512x512_1_1_0_0_n_n 4096 rfl rfl).symm h) = ix2 j h :=
    Shape.idx_ext₂ (rhsA_0 _ _) ((rhsA_1 _ _).trans (contrEquiv1_symm_val _ _ _ _ h))
  rw [hl, hr]

/-! ### 512 × 4096 by 4096 × 16, the left's second axis against the right's first -/

theorem lhsB_0 (j : S512x16.Idx) (k : dot_S512x4096_S4096x16_S512x16_1_0_0_1_n_n.contr.Idx) :
    (dot_S512x4096_S4096x16_S512x16_1_0_0_1_n_n.lhsIdx j k 0 : ℕ) = j 0 := by
  unfold DotDims.lhsIdx
  rw [dif_neg (show ¬(0 : Fin S512x4096.rank) ∈ dot_S512x4096_S4096x16_S512x16_1_0_0_1_n_n.lhsBatch by decide),
    dif_pos (show (0 : Fin S512x4096.rank) ∈ dot_S512x4096_S4096x16_S512x16_1_0_0_1_n_n.lhsNonContracting by decide)]
  rfl

theorem lhsB_1 (j : S512x16.Idx) (k : dot_S512x4096_S4096x16_S512x16_1_0_0_1_n_n.contr.Idx) :
    (dot_S512x4096_S4096x16_S512x16_1_0_0_1_n_n.lhsIdx j k 1 : ℕ) = k ⟨0, by decide⟩ :=
  dot_S512x4096_S4096x16_S512x16_1_0_0_1_n_n.lhsIdx_val_of_single (cl := 1) rfl j k

theorem rhsB_0 (j : S512x16.Idx) (k : dot_S512x4096_S4096x16_S512x16_1_0_0_1_n_n.contr.Idx) :
    (dot_S512x4096_S4096x16_S512x16_1_0_0_1_n_n.rhsIdx j k 0 : ℕ) = k ⟨0, by decide⟩ :=
  dot_S512x4096_S4096x16_S512x16_1_0_0_1_n_n.rhsIdx_val_of_single (cr := 0) rfl j k

theorem rhsB_1 (j : S512x16.Idx) (k : dot_S512x4096_S4096x16_S512x16_1_0_0_1_n_n.contr.Idx) :
    (dot_S512x4096_S4096x16_S512x16_1_0_0_1_n_n.rhsIdx j k 1 : ℕ) = j 1 := by
  unfold DotDims.rhsIdx
  rw [dif_neg (show ¬(1 : Fin S4096x16.rank) ∈ dot_S512x4096_S4096x16_S512x16_1_0_0_1_n_n.rhsBatch by decide),
    dif_pos (show (1 : Fin S4096x16.rank) ∈ dot_S512x4096_S4096x16_S512x16_1_0_0_1_n_n.rhsNonContracting by decide)]
  rfl

/-- Row `i` of the left operand against column `r` of the right one, into the zero accumulator: the sum over the 4096
    shared positions. -/
theorem mmB_apply (a : FVec Ideal S512x4096 .bf16) (b : FVec Ideal S4096x16 .bf16) (i : Fin 512) (r : Fin 16) :
    matmul (F := Ideal) dot_S512x4096_S4096x16_S512x16_1_0_0_1_n_n none a b (constant S512x16 .f32 0x00000000#32) (ix2 i r)
      = ∑ h : Fin 4096, a (ix2 i h) * b (ix2 h r) := by
  simp only [matmul]
  rw [Ideal.matmul_constant_zero_apply,
    ← Equiv.sum_comp (contrEquiv1 dot_S512x4096_S4096x16_S512x16_1_0_0_1_n_n 4096 rfl rfl).symm]
  refine Finset.sum_congr rfl fun h _ => ?_
  have hl : dot_S512x4096_S4096x16_S512x16_1_0_0_1_n_n.lhsIdx (ix2 i r)
      ((contrEquiv1 dot_S512x4096_S4096x16_S512x16_1_0_0_1_n_n 4096 rfl rfl).symm h) = ix2 i h :=
    Shape.idx_ext₂ (lhsB_0 _ _) ((lhsB_1 _ _).trans (contrEquiv1_symm_val _ _ _ _ h))
  have hr : dot_S512x4096_S4096x16_S512x16_1_0_0_1_n_n.rhsIdx (ix2 i r)
      ((contrEquiv1 dot_S512x4096_S4096x16_S512x16_1_0_0_1_n_n 4096 rfl rfl).symm h) = ix2 h r :=
    Shape.idx_ext₂ ((rhsB_0 _ _).trans (contrEquiv1_symm_val _ _ _ _ h)) (rhsB_1 _ _)
  rw [hl, hr]

/-! ### 512 × 16 by 512 × 16, both contracted on their second axis -/

theorem lhsC_0 (j : S512x512.Idx) (k : dot_S512x16_S512x16_S512x512_1_1_0_0_n_n.contr.Idx) :
    (dot_S512x16_S512x16_S512x512_1_1_0_0_n_n.lhsIdx j k 0 : ℕ) = j 0 := by
  unfold DotDims.lhsIdx
  rw [dif_neg (show ¬(0 : Fin S512x16.rank) ∈ dot_S512x16_S512x16_S512x512_1_1_0_0_n_n.lhsBatch by decide),
    dif_pos (show (0 : Fin S512x16.rank) ∈ dot_S512x16_S512x16_S512x512_1_1_0_0_n_n.lhsNonContracting by decide)]
  rfl

theorem lhsC_1 (j : S512x512.Idx) (k : dot_S512x16_S512x16_S512x512_1_1_0_0_n_n.contr.Idx) :
    (dot_S512x16_S512x16_S512x512_1_1_0_0_n_n.lhsIdx j k 1 : ℕ) = k ⟨0, by decide⟩ :=
  dot_S512x16_S512x16_S512x512_1_1_0_0_n_n.lhsIdx_val_of_single (cl := 1) rfl j k

theorem rhsC_0 (j : S512x512.Idx) (k : dot_S512x16_S512x16_S512x512_1_1_0_0_n_n.contr.Idx) :
    (dot_S512x16_S512x16_S512x512_1_1_0_0_n_n.rhsIdx j k 0 : ℕ) = j 1 := by
  unfold DotDims.rhsIdx
  rw [dif_neg (show ¬(0 : Fin S512x16.rank) ∈ dot_S512x16_S512x16_S512x512_1_1_0_0_n_n.rhsBatch by decide),
    dif_pos (show (0 : Fin S512x16.rank) ∈ dot_S512x16_S512x16_S512x512_1_1_0_0_n_n.rhsNonContracting by decide)]
  rfl

theorem rhsC_1 (j : S512x512.Idx) (k : dot_S512x16_S512x16_S512x512_1_1_0_0_n_n.contr.Idx) :
    (dot_S512x16_S512x16_S512x512_1_1_0_0_n_n.rhsIdx j k 1 : ℕ) = k ⟨0, by decide⟩ :=
  dot_S512x16_S512x16_S512x512_1_1_0_0_n_n.rhsIdx_val_of_single (cr := 1) rfl j k

/-- Row `i` of the left operand against row `j` of the right one, into the zero accumulator: the sum over the 16
    shared columns. -/
theorem mmC_apply (a b : FVec Ideal S512x16 .bf16) (i j : Fin 512) :
    matmul (F := Ideal) dot_S512x16_S512x16_S512x512_1_1_0_0_n_n none a b (constant S512x512 .f32 0x00000000#32) (ix2 i j)
      = ∑ r : Fin 16, a (ix2 i r) * b (ix2 j r) := by
  simp only [matmul]
  rw [Ideal.matmul_constant_zero_apply,
    ← Equiv.sum_comp (contrEquiv1 dot_S512x16_S512x16_S512x512_1_1_0_0_n_n 16 rfl rfl).symm]
  refine Finset.sum_congr rfl fun r _ => ?_
  have hl : dot_S512x16_S512x16_S512x512_1_1_0_0_n_n.lhsIdx (ix2 i j)
      ((contrEquiv1 dot_S512x16_S512x16_S512x512_1_1_0_0_n_n 16 rfl rfl).symm r) = ix2 i r :=
    Shape.idx_ext₂ (lhsC_0 _ _) ((lhsC_1 _ _).trans (contrEquiv1_symm_val _ _ _ _ r))
  have hr : dot_S512x16_S512x16_S512x512_1_1_0_0_n_n.rhsIdx (ix2 i j)
      ((contrEquiv1 dot_S512x16_S512x16_S512x512_1_1_0_0_n_n 16 rfl rfl).symm r) = ix2 j r :=
    Shape.idx_ext₂ (rhsC_0 _ _) ((rhsC_1 _ _).trans (contrEquiv1_symm_val _ _ _ _ r))
  rw [hl, hr]

/-! ## The output payload -/

/-- What every grid point stores into its output tile: at row `i`, column `j`, the activations' row `i` against the
    scratch's row `j`, plus the adapter (activations against `x3`'s columns, then against `x4`'s row `j`) weighted by
    the constant 1.0. The shape casts are to the same shape, the narrowing of the inner product is the identity at
    the ideal values, and each of the three products into the zero accumulator is its sum. -/
theorem out_apply (x0 w : Vec Ideal S512x4096 .bf16) (x3 : Vec Ideal S4096x16 .bf16) (x4 : Vec Ideal S512x16 .bf16)
    (i j : Fin 512) :
    k0_pay2 (F := Ideal) x0 w x3 x4 (ix2 i j)
      = (∑ h : Fin 4096, x0 (ix2 i h) * w (ix2 j h))
        + Cert.Spec.one * ∑ r : Fin 16, (∑ h : Fin 4096, x0 (ix2 i h) * x3 (ix2 h r)) * x4 (ix2 j r) := by
  unfold k0_pay2
  simp only [shapeCast_self]
  rw [addf_apply, mmA_apply, mulf_apply, broadcast_apply, mmC_apply]
  simp only [truncf_apply, mmB_apply]
  rfl

end Cert.KernelIdeal.Pay

end
-- ==== Proof.KArray.lean ====
/-
  The array the pallas_call leaves, at the ideal values, as one function of the five arrays it is launched on.

  The grid has 8 × 16 points; point `t` works on output-column tile `t / 16` and activation-row tile `t % 16`.
  The scratch holds, after every point, the decoded weights of column tile `t / 16`: the first point of each run
  of sixteen stores them, the fifteen after it leave them (induction on the point). Every point's output tile is
  the body's value of the activations' tile, the scratch, and the adapter tiles; tile (t % 16, t / 16) of the result
  is written back at point `t`, and those tiles cover the result.
-/
import proofs.«407890_j13838384628026_1_alg».proof.Proof.KPieces
import proofs.«407890_j13838384628026_1_alg».proof.Proof.KPayload
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The launch arrays and the windows' blocks, at their literal types -/

abbrev X2 (c : Dev nD) : Vec Ideal S8192x4096 .bf16 := V m c main_v17
abbrev Cd (c : Dev nD) : Vec Ideal S4096x4096 .i32 := V m c main_v9
abbrev Sc (c : Dev nD) : Vec Ideal S4096x4096 .bf16 := V m c main_v12
abbrev At (c : Dev nD) : Vec Ideal S4096x16 .bf16 := V m c main_v14
abbrev Bb (c : Dev nD) : Vec Ideal S4096x16 .bf16 := V m c main_v15

abbrev b0 (c : Dev nD) (t : Fin cfg0.N) : Vec Ideal S512x4096 .bf16 := iblk m c 0 t
abbrev b1 (c : Dev nD) (t : Fin cfg0.N) : Vec Ideal S512x4096 .i32 := iblk m c 1 t
abbrev b2 (c : Dev nD) (t : Fin cfg0.N) : Vec Ideal S512x4096 .bf16 := iblk m c 2 t
abbrev b3 (c : Dev nD) (t : Fin cfg0.N) : Vec Ideal S4096x16 .bf16 := iblk m c 3 t
abbrev b4 (c : Dev nD) (t : Fin cfg0.N) : Vec Ideal S512x16 .bf16 := iblk m c 4 t

theorem hN : cfg0.N = 128 := N_0

/-- Row `i` of the activation tile of point `n`, in the 8192-row array. -/
abbrev rowM (n : ℕ) (i : Fin 512) : Fin 8192 := ⟨n % 16 * 512 + i.val, by have := i.isLt; omega⟩
/-- Row `j` of the column tile of point `n`, among the 4096 output columns. -/
abbrev rowN (n : ℕ) (hn : n < cfg0.N) (j : Fin 512) : Fin 4096 :=
  ⟨n / 16 * 512 + j.val, by have := j.isLt; have := hN; omega⟩

/-- The index maps over the grid: which tile of its array each window is on at point `t`. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0
    ∧ win0_5.index t (0 : Fin 2) = t.val % 16 ∧ win0_5.index t (1 : Fin 2) = t.val / 16 :=
  (by decide +kernel : ∀ t : Fin grid0.N, _)

/-- The activation tile at point `t`: rows `(t % 16)·512 + i` of the flattened activations. -/
theorem b0_apply (c : Dev nD) (t : Fin cfg0.N) (i : Fin 512) (h : Fin 4096) :
    b0 m c t (ix2 i h) = X2 m c (ix2 (rowM t.val i) h) := by
  obtain ⟨e0, e1, -⟩ := idx_facts t
  show V m c main_v17 (((cfg0.win 0).blk t).view.emb (ix2 i h)) = V m c main_v17 (ix2 (rowM t.val i) h)
  refine congrArg _ (funext fun a => Fin.ext ?_)
  match a with
  | ⟨0, _⟩ => show win0_0.index t (0 : Fin 2) * 512 + 1 * i.val = t.val % 16 * 512 + i.val; rw [e0]; omega
  | ⟨1, _⟩ => show win0_0.index t (1 : Fin 2) * 4096 + 1 * h.val = h.val; rw [e1]; omega

/-- The code tile at point `t`: rows `(t / 16)·512 + r` of the codes. -/
theorem b1_apply (c : Dev nD) (t : Fin cfg0.N) (r : Fin 512) (h : Fin 4096) :
    b1 m c t (ix2 r h) = Cd m c (ix2 (rowN t.val t.isLt r) h) := by
  obtain ⟨-, -, e0, e1, -⟩ := idx_facts t
  show V m c main_v9 (((cfg0.win 1).blk t).view.emb (ix2 r h)) = V m c main_v9 (ix2 (rowN t.val t.isLt r) h)
  refine congrArg _ (funext fun a => Fin.ext ?_)
  match a with
  | ⟨0, _⟩ => show win0_1.index t (0 : Fin 2) * 512 + 1 * r.val = t.val / 16 * 512 + r.val; rw [e0]; omega
  | ⟨1, _⟩ => show win0_1.index t (1 : Fin 2) * 4096 + 1 * h.val = h.val; rw [e1]; omega

/-- The scale tile at point `t`: the same rows of the spread scales. -/
theorem b2_apply (c : Dev nD) (t : Fin cfg0.N) (r : Fin 512) (h : Fin 4096) :
    b2 m c t (ix2 r h) = Sc m c (ix2 (rowN t.val t.isLt r) h) := by
  obtain ⟨-, -, -, -, e0, e1, -⟩ := idx_facts t
  show V m c main_v12 (((cfg0.win 2).blk t).view.emb (ix2 r h)) = V m c main_v12 (ix2 (rowN t.val t.isLt r) h)
  refine congrArg _ (funext fun a => Fin.ext ?_)
  match a with
  | ⟨0, _⟩ => show win0_2.index t (0 : Fin 2) * 512 + 1 * r.val = t.val / 16 * 512 + r.val; rw [e0]; omega
  | ⟨1, _⟩ => show win0_2.index t (1 : Fin 2) * 4096 + 1 * h.val = h.val; rw [e1]; omega

/-- The first adapter matrix is one tile: the whole of it at every point. -/
theorem b3_apply (c : Dev nD) (t : Fin cfg0.N) (h : Fin 4096) (r : Fin 16) :
    b3 m c t (ix2 h r) = At m c (ix2 h r) := by
  obtain ⟨-, -, -, -, -, -, e0, e1, -⟩ := idx_facts t
  show V m c main_v14 (((cfg0.win 3).blk t).view.emb (ix2 h r)) = V m c main_v14 (ix2 h r)
  refine congrArg _ (funext fun a => Fin.ext ?_)
  match a with
  | ⟨0, _⟩ => show win0_3.index t (0 : Fin 2) * 4096 + 1 * h.val = h.val; rw [e0]; omega
  | ⟨1, _⟩ => show win0_3.index t (1 : Fin 2) * 16 + 1 * r.val = r.val; rw [e1]; omega

/-- The second adapter matrix's tile at point `t`: rows `(t / 16)·512 + j`. -/
theorem b4_apply (c : Dev nD) (t : Fin cfg0.N) (j : Fin 512) (r : Fin 16) :
    b4 m c t (ix2 j r) = Bb m c (ix2 (rowN t.val t.isLt j) r) := by
  obtain ⟨-, -, -, -, -, -, -, -, e0, e1, -⟩ := idx_facts t
  show V m c main_v15 (((cfg0.win 4).blk t).view.emb (ix2 j r)) = V m c main_v15 (ix2 (rowN t.val t.isLt j) r)
  refine congrArg _ (funext fun a => Fin.ext ?_)
  match a with
  | ⟨0, _⟩ => show win0_4.index t (0 : Fin 2) * 512 + 1 * j.val = t.val / 16 * 512 + j.val; rw [e0]; omega
  | ⟨1, _⟩ => show win0_4.index t (1 : Fin 2) * 16 + 1 * r.val = r.val; rw [e1]; omega

/-! ## The scratch after every point -/

/-- After point `n` the scratch holds the decoded weights of column tile `n / 16`: stored at the first point of
    each run of sixteen, kept by the others. -/
theorem scratch_eq (c : Dev nD) : ∀ (n : ℕ) (hn : n < cfg0.N) (r : Fin 512) (h : Fin 4096),
    (outsAt0 m c n hn).2 (ix2 r h)
      = Cert.Spec.decSel (Cd m c (ix2 (rowN n hn r) h)) * Sc m c (ix2 (rowN n hn r) h) := by
  intro n
  induction n with
  | zero =>
    intro hn r h
    have h0 : (⟨0, hn⟩ : Fin cfg0.N).val % 16 = 0 := rfl
    rw [outsAt0_A m c ⟨0, hn⟩ h0]; dsimp only
    refine (congrFun (Pieces.scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr h0) (b0 m c ⟨0, hn⟩) (b1 m c ⟨0, hn⟩) (b2 m c ⟨0, hn⟩) (b3 m c ⟨0, hn⟩) (b4 m c ⟨0, hn⟩)) (ix2 r h)).trans ?_
    refine (Pay.decode_apply (b1 m c ⟨0, hn⟩) (b2 m c ⟨0, hn⟩) r h).trans ?_
    rw [b1_apply, b2_apply]
  | succ k ih =>
    intro hn r h
    by_cases h0 : (⟨k + 1, hn⟩ : Fin cfg0.N).val % 16 = 0
    · rw [outsAt0_A m c ⟨k + 1, hn⟩ h0]; dsimp only
      refine (congrFun (Pieces.scratch_A (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) (ms0_5 ⟨k + 1, hn⟩) (hs0_5 ⟨k + 1, hn⟩) scM0_0 (Memref.isWhole_whole _) ((hcond0_0 ⟨k + 1, hn⟩).mpr h0) (b0 m c ⟨k + 1, hn⟩) (b1 m c ⟨k + 1, hn⟩) (b2 m c ⟨k + 1, hn⟩) (b3 m c ⟨k + 1, hn⟩) (b4 m c ⟨k + 1, hn⟩)) (ix2 r h)).trans ?_
      refine (Pay.decode_apply (b1 m c ⟨k + 1, hn⟩) (b2 m c ⟨k + 1, hn⟩) r h).trans ?_
      rw [b1_apply, b2_apply]
    · rw [outsAt0_B m c ⟨k + 1, hn⟩ h0]; dsimp only
      unfold sout0_B_0
      have hq : rowN (k + 1) hn r = rowN k (Nat.lt_of_succ_lt hn) r :=
        Fin.ext (by show (k + 1) / 16 * 512 + r.val = k / 16 * 512 + r.val; dsimp only at h0; omega)
      rw [hq]
      exact ih (Nat.lt_of_succ_lt hn) r h

/-! ## The output tile at every point -/

/-- At every point the output tile is the body's value of the activation tile, the scratch as the point leaves it,
    and the two adapter tiles (the taken branch reads its own store back; the skipped one reads what was kept). -/
theorem out_uniform (c : Dev nD) (t : Fin cfg0.N) :
    (outsAt0 m c t.val t.isLt).1 = k0_pay2 (b0 m c t) (outsAt0 m c t.val t.isLt).2 (b3 m c t) (b4 m c t) := by
  by_cases h0 : t.val % 16 = 0
  · rw [outsAt0_A m c t h0]; dsimp only
    rw [Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (b0 m c t) (b1 m c t) (b2 m c t) (b3 m c t) (b4 m c t),
      Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (b0 m c t) (b1 m c t) (b2 m c t) (b3 m c t) (b4 m c t)]
  · rw [outsAt0_B m c t h0]; dsimp only
    unfold sout0_B_0
    exact Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (b0 m c t) (b1 m c t) (b2 m c t) (b3 m c t) (b4 m c t) _

/-- Entry (rw, o) of the result: the activations' row against the decoded, scaled weights of output `o`, plus the
    adapter weighted by 1.0. -/
def yval (c : Dev nD) (rw : Fin 8192) (o : Fin 4096) : EReal :=
  (∑ h : Fin 4096, X2 m c (ix2 rw h) * (Cert.Spec.decSel (Cd m c (ix2 o h)) * Sc m c (ix2 o h)))
    + Cert.Spec.one * ∑ r : Fin 16, (∑ h : Fin 4096, X2 m c (ix2 rw h) * At m c (ix2 h r)) * Bb m c (ix2 o r)

/-- The result array. -/
def Y (c : Dev nD) : Vec Ideal S8192x4096 .f32 :=
  fun idx => yval m c ⟨(idx 0).val, (idx 0).isLt⟩ ⟨(idx 1).val, (idx 1).isLt⟩

/-- The output tile at point `t`, entry (i, j): the result's entry at row `(t % 16)·512 + i`, column `(t / 16)·512 + j`. -/
theorem out_eq (c : Dev nD) (t : Fin cfg0.N) (i j : Fin 512) :
    (outsAt0 m c t.val t.isLt).1 (ix2 i j) = yval m c (rowM t.val i) (rowN t.val t.isLt j) := by
  rw [out_uniform m c t]
  refine (Pay.out_apply (b0 m c t) (outsAt0 m c t.val t.isLt).2 (b3 m c t) (b4 m c t) i j).trans ?_
  unfold yval
  simp only [b0_apply, b3_apply, b4_apply, scratch_eq m c t.val t.isLt]

/-! ## From tiles to the array -/

/-- The output tile at point `t` as one function of the position inside the tile. -/
theorem tile_eq (c : Dev nD) (t : Fin cfg0.N) :
    (outsAt0 m c t.val t.isLt).1
      = fun y : S512x512.Idx => yval m c (rowM t.val ⟨(y 0).val, (y 0).isLt⟩) (rowN t.val t.isLt ⟨(y 1).val, (y 1).isLt⟩) := by
  funext y
  obtain ⟨i, j, rfl⟩ : ∃ (i j : Fin 512), y = ix2 i j := ⟨y 0, y 1, eq_ix2 y⟩
  exact out_eq m c t i j

/-- What point `t` writes back is tile `t` of the result. -/
theorem flushed_eq (c : Dev nD) (t : Fin cfg0.N) :
    (dats m 0 c).flushed 5 t = ((cfg0.win 5).blk t).view.read (Elt Ideal) (Y m c) := by
  show (cfg0.win 5).cut (grid0.coords t) ((dats m 0 c).after 5 t) = _
  rw [after0_5, tile_eq]
  obtain ⟨-, -, -, -, -, -, -, -, -, -, e0, e1⟩ := idx_facts t
  funext y
  unfold Y
  refine congrArg₂ (yval m c) (Fin.ext ?_) (Fin.ext ?_)
  · show t.val % 16 * 512 + (y 0).val = win0_5.index t (0 : Fin 2) * 512 + 1 * (y 0).val
    rw [e0]; omega
  · show t.val / 16 * 512 + (y 1).val = win0_5.index t (1 : Fin 2) * 512 + 1 * (y 1).val
    rw [e1]; omega

/-- An index of the result is in point `t`'s tile iff each coordinate is in the tile's range on its axis. -/
theorem mem_blk (t : Fin cfg0.N) (i : S8192x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v18).slice (win0_5.rect t)).set ↔ _
  rw [View.set_slice_whole, Rect.mem_set_unit]
  exact Iff.rfl

/-- The tiles cover the result: entry (rw, o) is in the tile of the point `(o / 512)·16 + rw / 512`. -/
theorem cover (c : Dev nD) (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hn := hN
  let t : Fin cfg0.N := ⟨(i 1).val / 512 * 16 + (i 0).val / 512, by omega⟩
  obtain ⟨-, -, -, -, -, -, -, -, -, -, e0, e1⟩ := idx_facts t
  have ht : t.val = (i 1).val / 512 * 16 + (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 512 ≤ (i 1).val ∧ (i 1).val < win0_5.index t (1 : Fin 2) * 512 + 512; rw [e1, ht]; omega

/-- The array the region leaves. -/
theorem final (c : Dev nD) : (dats m 0 c).arrAt 5 cfg0.N = Y m c :=
  (dats m 0 c).arrAt_eq_of_cover 5 (Y m c) (fun t _ => flushed_eq m c t) (cover c)

end Cert.KernelIdeal.Arr

end
-- ==== Proof.KHost.lean ====
/-
  The five arrays the pallas_call is launched on, as the host lines before it build them from the program's
  arguments: the activations flattened to 8192 rows, the codes, the scales spread over their 64-column blocks,
  the first adapter matrix transposed, the second as it is (each float array also changing format, which at the
  ideal values changes nothing). Then each of them read at an index, at the ideal values.
-/
import proofs.«407890_j13838384628026_1_alg».proof.Proof.Gen.KernelIdeal.Frame
import proofs.«407890_j13838384628026_1_alg».proof.Proof.Spec
import Idealize.ShloMosaic.Lib.Pipeline.Value
import Idealize.ShloMosaic.Lib.ValueIdx
import Idealize.ShloMosaic.Lib.StableHlo.Run

noncomputable section

namespace Cert.KernelIdeal.HostArr

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The activations: flattened from 4 × 2048 × 4096 to 8192 × 4096. -/
theorem V_x (c : Dev nD) : (V m c main_v17 : Vec F S8192x4096 .bf16)
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v17) = _
  after_results
  rfl

/-- The codes. -/
theorem V_codes (c : Dev nD) : (V m c main_v9 : Vec F S4096x4096 .i32)
    = Cert.Spec.codes (m ((c : Thread nD τ).loc main_arg1)) bcast_S_S4096x2048 bcast_S4096x2048_S4096x2048x1_0_1
        concatenates_S4096x2048x1_S4096x2048x1_S4096x2048x2_d2 shapeCasts_S4096x2048x2_S4096x4096 := by
  show StableHlo.after hostOps0 (fun b => m (c, b)) (Proc.devRef .tc main_v9) = _
  after_results
  rfl

/-- The scales, one per 64-column block, spread over the block's columns. -/
theorem V_scale (c : Dev nD) : (V m c main_v12 : Vec F S4096x4096 .bf16)
    = truncf .bf16 (shapeCast S4096x4096 (broadcastInDim S4096x64x64 ![0, 1] bcast_S4096x64_S4096x64x64_0_1
        (m ((c : Thread nD τ).loc main_arg2))) shapeCasts_S4096x64x64_S4096x4096) bitsLt_bf16_f32 := by
  show StableHlo.after hostOps0 (fun b => m (c, b)) (Proc.devRef .tc main_v12) = _
  after_results
  rfl

/-- The first adapter matrix, transposed to 4096 × 16. -/
theorem V_a (c : Dev nD) : (V m c main_v14 : Vec F S4096x16 .bf16)
    = truncf .bf16 (transpose S4096x16 [1, 0] (m ((c : Thread nD τ).loc main_arg3)) transposes_S16x4096_S4096x16_1_0) bitsLt_bf16_f32 := by
  show StableHlo.after hostOps0 (fun b => m (c, b)) (Proc.devRef .tc main_v14) = _
  after_results

/-- The second adapter matrix. -/
theorem V_b (c : Dev nD) : (V m c main_v15 : Vec F S4096x16 .bf16)
    = truncf .bf16 (m ((c : Thread nD τ).loc main_arg4)) bitsLt_bf16_f32 := by
  show StableHlo.after hostOps0 (fun b => m (c, b)) (Proc.devRef .tc main_v15) = _
  after_results

end Cert.KernelIdeal.HostArr

end
-- ==== Proof.KFinal.lean ====
/-
  The kernel program's run, read at the ideal values: its result is the specification's array of its arguments.

  The array the pallas_call leaves (8192 × 4096) is stated over the five launch arrays; here each launch array is
  read at an index as the host lines before the call build it — the activations' row `p·2048 + t` is row (p, t) of
  the argument, the spread scale at column `h` is the scale of block `h / 64`, the transposed adapter matrix swaps
  its coordinates, a change of float format changes nothing — and the one host line after the call views the
  8192 rows as 4 × 2048 again.
-/
import proofs.«407890_j13838384628026_1_alg».proof.Proof.KArray
import proofs.«407890_j13838384628026_1_alg».proof.Proof.KHost
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Row (p, t) of the activations, among the 8192 flattened rows. -/
abbrev flatRow (p : Fin 4) (t : Fin 2048) : Fin 8192 := ⟨p.val * 2048 + t.val, by have := p.isLt; have := t.isLt; omega⟩

/-- The flattened activations at row `p·2048 + t`: the argument at (p, t). -/
theorem X2_apply (c : Dev nD) (p : Fin 4) (t : Fin 2048) (h : Fin 4096) :
    Arr.X2 m c (ix2 (flatRow p t) h) = (m ((c : Thread nD τ).loc main_arg0)) (ix3 p t h) := by
  show (V m c main_v17 : Vec Ideal S8192x4096 .bf16) _ = _
  rw [HostArr.V_x, truncf_apply]
  exact shapeCast_apply _ _ _ (ix3 p t h) (by
    rw [Shape.rowMajor_val_three, Shape.rowMajor_val_two]
    show (p.val * 2048 + t.val) * 4096 + h.val = (p.val * 2048 + t.val) * 4096 + h.val
    rfl)

/-- The spread scales at (o, h): the scale of row `o`, block `h / 64`. -/
theorem Sc_apply (c : Dev nD) (o h : Fin 4096) :
    Arr.Sc m c (ix2 o h) = (m ((c : Thread nD τ).loc main_arg2)) (ix2 o ⟨h.val / 64, by have := h.isLt; omega⟩) := by
  show (V m c main_v12 : Vec Ideal S4096x4096 .bf16) _ = _
  rw [HostArr.V_scale, truncf_apply]
  refine (shapeCast_apply _ _ _ (ix3 o (⟨h.val / 64, by have := h.isLt; omega⟩ : Fin 64) (⟨h.val % 64, by omega⟩ : Fin 64)) (by
    rw [Shape.rowMajor_val_three, Shape.rowMajor_val_two]
    show (o.val * 64 + h.val / 64) * 64 + h.val % 64 = o.val * 4096 + h.val
    omega)).trans ?_
  exact broadcastInDim_apply _ _ _ _ (ix2 o (⟨h.val / 64, by have := h.isLt; omega⟩ : Fin 64)) (fun a => by
    match a with
    | ⟨0, _⟩ => rfl
    | ⟨1, _⟩ => rfl)

/-- The transposed first adapter matrix at (h, r): the argument at (r, h). -/
theorem At_apply (c : Dev nD) (h : Fin 4096) (r : Fin 16) :
    Arr.At m c (ix2 h r) = (m ((c : Thread nD τ).loc main_arg3)) (ix2 r h) := by
  show (V m c main_v14 : Vec Ideal S4096x16 .bf16) _ = _
  rw [HostArr.V_a, truncf_apply]
  exact transpose_apply _ _ _ _ (ix2 r h) (fun b => by
    match b with
    | ⟨0, _⟩ => rfl
    | ⟨1, _⟩ => rfl)

/-- The second adapter matrix is the argument. -/
theorem Bb_apply (c : Dev nD) (j : S4096x16.Idx) : Arr.Bb m c j = (m ((c : Thread nD τ).loc main_arg4)) j := by
  show (V m c main_v15 : Vec Ideal S4096x16 .bf16) _ = _
  rw [HostArr.V_b, truncf_apply]

/-- So the region's result at row `p·2048 + t`, column `o` is the specification's entry (p, t, o). -/
theorem yval_eq (c : Dev nD) (p : Fin 4) (t : Fin 2048) (o : Fin 4096) :
    Arr.yval m c (flatRow p t) o
      = Cert.Spec.out (m ((c : Thread nD τ).loc main_arg0)) (Cert.Spec.codes (m ((c : Thread nD τ).loc main_arg1)) bcast_S_S4096x2048 bcast_S4096x2048_S4096x2048x1_0_1 concatenates_S4096x2048x1_S4096x2048x1_S4096x2048x2_d2 shapeCasts_S4096x2048x2_S4096x4096) (m ((c : Thread nD τ).loc main_arg2)) (m ((c : Thread nD τ).loc main_arg3)) (m ((c : Thread nD τ).loc main_arg4)) p t o := by
  unfold Arr.yval Cert.Spec.out Cert.Spec.weight
  have hC : Arr.Cd m c = (Cert.Spec.codes (m ((c : Thread nD τ).loc main_arg1)) bcast_S_S4096x2048 bcast_S4096x2048_S4096x2048x1_0_1 concatenates_S4096x2048x1_S4096x2048x1_S4096x2048x2_d2 shapeCasts_S4096x2048x2_S4096x4096) := HostArr.V_codes m c
  refine congrArg₂ (· + ·) (Finset.sum_congr rfl fun h _ => ?_)
    (congrArg (Cert.Spec.one * ·) (Finset.sum_congr rfl fun r _ => ?_))
  · rw [X2_apply, Sc_apply, hC]
  · refine congrArg₂ (· * ·) (Finset.sum_congr rfl fun h _ => ?_) (Bb_apply m c _)
    rw [X2_apply, At_apply]

/-- The buffer the program returns, after the host line that follows the call: the specification's array. -/
theorem tail_eq (c : Dev nD) :
    Pipeline.afterTail₀ cfgs (dats m) 0 (V0 m) [hostOps1] c main_v19 = Cert.Spec.G (m ((c : Thread nD τ).loc main_arg0)) (Cert.Spec.codes (m ((c : Thread nD τ).loc main_arg1)) bcast_S_S4096x2048 bcast_S4096x2048_S4096x2048x1_0_1 concatenates_S4096x2048x1_S4096x2048x1_S4096x2048x2_d2 shapeCasts_S4096x2048x2_S4096x4096) (m ((c : Thread nD τ).loc main_arg2)) (m ((c : Thread nD τ).loc main_arg3)) (m ((c : Thread nD τ).loc main_arg4)) := by
  unfold Pipeline.afterTail₀
  show StableHlo.after hostOps1 _ (Proc.devRef .tc main_v19) = _
  after_results
  have hW : Pipeline.withArrays (cfgs 0).spec c (V0 m c) (fun w => (dats m 0 c).arrAt w (cfgs 0).N)
      (Proc.devRef .tc main_v18) = Arr.Y m c :=
    (Pipeline.withArrays_arr spec0 launch0.win.arr_inj c _ _ 5).trans (Arr.final m c)
  funext i
  obtain ⟨p, t, o, rfl⟩ : ∃ (p : Fin 4) (t : Fin 2048) (o : Fin 4096), i = ix3 p t o := ⟨i 0, i 1, i 2, eq_ix3 i⟩
  rw [Cert.Spec.G_apply]
  show shapeCast S4x2048x4096 (Pipeline.withArrays (cfgs 0).spec c (V0 m c) (fun w => (dats m 0 c).arrAt w (cfgs 0).N)
      (Proc.devRef .tc main_v18)) shapeCasts_S8192x4096_S4x2048x4096 (ix3 p t o) = _
  rw [hW]
  refine (shapeCast_apply _ _ _ (ix2 (flatRow p t) o) (by
    rw [Shape.rowMajor_val_three, Shape.rowMajor_val_two]
    show (p.val * 2048 + t.val) * 4096 + o.val = (p.val * 2048 + t.val) * 4096 + o.val
    rfl)).trans ?_
  exact yval_eq m c p t o

/-- The kernel program's run at the ideal values: every weakly fair execution terminates with the returned buffer at
    the specification's array of the arguments, and the arguments unchanged. -/
theorem run : θ_run defs (onTc (τ := τ) (main (F := Ideal))) ⟨m, fun _ => 0, ρ⟩ fun r => ∀ c : Dev nD,
      r.2.mem ((c.tc : Thread nD τ).loc main_v19) = Cert.Spec.G (m ((c : Thread nD τ).loc main_arg0)) (Cert.Spec.codes (m ((c : Thread nD τ).loc main_arg1)) bcast_S_S4096x2048 bcast_S4096x2048_S4096x2048x1_0_1 concatenates_S4096x2048x1_S4096x2048x1_S4096x2048x2_d2 shapeCasts_S4096x2048x2_S4096x4096) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.RefTerm.lean ====
/-
  The reference program's result as ONE pure term of its five argument arrays, at any float instance: its
  thirty-five host operations composed in order. Unpack the two nibbles of every packed word and lay them side by
  side (the codes); wrap a negative code by 16 and look each code up in the sixteen-entry table; scale every
  64-column block of the looked-up matrix; multiply the activations by that matrix (contracting the hidden
  axis); add the rank-16 adapter — activations times `a` (contracting the hidden axis), times `b`
  (contracting the rank axis) — weighted by the constant 1.0.
-/
import proofs.«407890_j13838384628026_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The sixteen-entry table the program holds as a dense constant. -/
def table : Vec F S16 .f32 := fun i => FloatOps.ofBits .f32 (lit0 (S16.rowMajor i))

/-- The codes: low and high nibble of every packed word, side by side, flattened to 4096 × 4096. -/
def codesOf (q : Vec F S4096x2048 .i32) : Vec F S4096x4096 .i32 :=
  shapeCast S4096x4096 (concatenate S4096x2048x2 2
    [⟨S4096x2048x1, broadcastInDim S4096x2048x1 ![0, 1] bcast_S4096x2048_S4096x2048x1_0_1
        (andi q (broadcastInDim S4096x2048 ![] bcast_S_S4096x2048 (constantI S_ 32 15#32)))⟩,
     ⟨S4096x2048x1, broadcastInDim S4096x2048x1 ![0, 1] bcast_S4096x2048_S4096x2048x1_0_1
        (andi (Host.shrsi q (broadcastInDim S4096x2048 ![] bcast_S_S4096x2048 (constantI S_ 32 4#32)))
          (broadcastInDim S4096x2048 ![] bcast_S_S4096x2048 (constantI S_ 32 15#32)))⟩]
    concatenates_S4096x2048x1_S4096x2048x1_S4096x2048x2_d2) shapeCasts_S4096x2048x2_S4096x4096

/-- The table looked up at every code, a negative code first wrapped by 16 (jnp's indexing). -/
def lookup (C : Vec F S4096x4096 .i32) : Vec F S4096x4096 .f32 :=
  Host.gather gather_S16_S4096x4096x1_S4096x4096_n_0_n_n_0_2_1 (table (F := F))
    (broadcastInDim S4096x4096x1 ![0, 1] bcast_S4096x4096_S4096x4096x1_0_1
      (select (cmpi .slt C (broadcastInDim S4096x4096 ![] bcast_S_S4096x4096 (constantI S_ 32 0#32)))
        (addi C (broadcastInDim S4096x4096 ![] bcast_S_S4096x4096 (constantI S_ 32 16#32))) C))

/-- The dequantized weight matrix: the looked-up levels, viewed as 64-column blocks, each block times its scale. -/
def weightOf (g : Vec F S4096x4096 .f32) (s : Vec F S4096x64 .f32) : Vec F S4096x4096 .f32 :=
  shapeCast S4096x4096
    (mulf (shapeCast S4096x64x64 g shapeCasts_S4096x4096_S4096x64x64)
      (broadcastInDim S4096x64x64 ![0, 1, 2] bcast_S4096x64x1_S4096x64x64_0_1_2
        (broadcastInDim S4096x64x1 ![0, 1] bcast_S4096x64_S4096x64x1_0_1 s)))
    shapeCasts_S4096x64x64_S4096x4096

/-- The reference's result of its argument arrays. -/
def refTerm (x : Vec F S4x2048x4096 .f32) (q : Vec F S4096x2048 .i32) (s : Vec F S4096x64 .f32)
    (a : Vec F S16x4096 .f32) (b : Vec F S4096x16 .f32) : Vec F S4x2048x4096 .f32 :=
  addf (Host.dotGeneral dot_S4x2048x4096_S4096x4096_S4x2048x4096_2_1_01_0_n_n none x (weightOf (lookup (codesOf q)) s))
    (mulf (broadcastInDim S4x2048x4096 ![] bcast_S_S4x2048x4096 (constant S_ .f32 0x3F800000#32))
      (Host.dotGeneral dot_S4x2048x16_S4096x16_S4x2048x4096_2_1_01_0_n_n none
        (Host.dotGeneral dot_S4x2048x4096_S16x4096_S4x2048x16_2_1_01_0_n_n none x a) b))

end Cert.ReferenceIdeal.Hand

end
-- ==== Proof.RefRun.lean ====
/-
  The reference program's run, read back: its @main is the sequence of its thirty-five host operations (over
  forty buffers: five arguments and thirty-five results), so every weakly fair execution terminates with the
  result buffer at the operations' composed term of the argument arrays (`Hand.refTerm`) and the argument
  arrays unchanged.
-/
import proofs.«407890_j13838384628026_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first thirteen operations: the two nibbles of every packed word, laid side by side. -/
abbrev opsA : List (HloOp τ sig (Elt F)) :=
  [
    nullary main_cst (fun i => FloatOps.ofBits .f32 (lit0 (S16.rowMajor i))),
    nullary main_c (constantI S_ 32 15#32),
    unary main_c main_v0 (broadcastInDim S4096x2048 ![] bcast_S_S4096x2048 : (⟨S_, .i32⟩ : BufTy).Contents (Elt F) → (⟨S4096x2048, .i32⟩ : BufTy).Contents (Elt F)),
    binary main_arg1 main_v0 main_v1 (andi : (⟨S4096x2048, .i32⟩ : BufTy).Contents (Elt F) → (⟨S4096x2048, .i32⟩ : BufTy).Contents (Elt F) → (⟨S4096x2048, .i32⟩ : BufTy).Contents (Elt F)),
    nullary main_c_0 (constantI S_ 32 4#32),
    unary main_c_0 main_v2 (broadcastInDim S4096x2048 ![] bcast_S_S4096x2048 : (⟨S_, .i32⟩ : BufTy).Contents (Elt F) → (⟨S4096x2048, .i32⟩ : BufTy).Contents (Elt F)),
    binary main_arg1 main_v2 main_v3 (Host.shrsi : (⟨S4096x2048, .i32⟩ : BufTy).Contents (Elt F) → (⟨S4096x2048, .i32⟩ : BufTy).Contents (Elt F) → (⟨S4096x2048, .i32⟩ : BufTy).Contents (Elt F)),
    nullary main_c_1 (constantI S_ 32 15#32),
    unary main_c_1 main_v4 (broadcastInDim S4096x2048 ![] bcast_S_S4096x2048 : (⟨S_, .i32⟩ : BufTy).Contents (Elt F) → (⟨S4096x2048, .i32⟩ : BufTy).Contents (Elt F)),
    binary main_v3 main_v4 main_v5 (andi : (⟨S4096x2048, .i32⟩ : BufTy).Contents (Elt F) → (⟨S4096x2048, .i32⟩ : BufTy).Contents (Elt F) → (⟨S4096x2048, .i32⟩ : BufTy).Contents (Elt F)),
    unary main_v1 main_v6 (broadcastInDim S4096x2048x1 ![0, 1] bcast_S4096x2048_S4096x2048x1_0_1 : (⟨S4096x2048, .i32⟩ : BufTy).Contents (Elt F) → (⟨S4096x2048x1, .i32⟩ : BufTy).Contents (Elt F)),
    unary main_v5 main_v7 (broadcastInDim S4096x2048x1 ![0, 1] bcast_S4096x2048_S4096x2048x1_0_1 : (⟨S4096x2048, .i32⟩ : BufTy).Contents (Elt F) → (⟨S4096x2048x1, .i32⟩ : BufTy).Contents (Elt F)),
    binary main_v6 main_v7 main_v8 ((fun a b => concatenate S4096x2048x2 2 [⟨S4096x2048x1, a⟩, ⟨S4096x2048x1, b⟩] concatenates_S4096x2048x1_S4096x2048x1_S4096x2048x2_d2) : (⟨S4096x2048x1, .i32⟩ : BufTy).Contents (Elt F) → (⟨S4096x2048x1, .i32⟩ : BufTy).Contents (Elt F) → (⟨S4096x2048x2, .i32⟩ : BufTy).Contents (Elt F)) ]

/-- The remaining twenty-two operations: the table lookup, the scaling, the three contractions and the sum. -/
abbrev opsB : List (HloOp τ sig (Elt F)) :=
  [
    reshape main_v8 main_v9 rfl shapeCasts_S4096x2048x2_S4096x4096,
    nullary main_c_2 (constantI S_ 32 0#32),
    unary main_c_2 main_v10 (broadcastInDim S4096x4096 ![] bcast_S_S4096x4096 : (⟨S_, .i32⟩ : BufTy).Contents (Elt F) → (⟨S4096x4096, .i32⟩ : BufTy).Contents (Elt F)),
    binary main_v9 main_v10 main_v11 (cmpi .slt : (⟨S4096x4096, .i32⟩ : BufTy).Contents (Elt F) → (⟨S4096x4096, .i32⟩ : BufTy).Contents (Elt F) → (⟨S4096x4096, .i1⟩ : BufTy).Contents (Elt F)),
    nullary main_c_3 (constantI S_ 32 16#32),
    unary main_c_3 main_v12 (broadcastInDim S4096x4096 ![] bcast_S_S4096x4096 : (⟨S_, .i32⟩ : BufTy).Contents (Elt F) → (⟨S4096x4096, .i32⟩ : BufTy).Contents (Elt F)),
    binary main_v9 main_v12 main_v13 (addi : (⟨S4096x4096, .i32⟩ : BufTy).Contents (Elt F) → (⟨S4096x4096, .i32⟩ : BufTy).Contents (Elt F) → (⟨S4096x4096, .i32⟩ : BufTy).Contents (Elt F)),
    ternary main_v11 main_v13 main_v9 main_v14 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v14 main_v15 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v15 main_v16 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v16 main_v17 rfl shapeCasts_S4096x4096_S4096x64x64,
    unary main_arg2 main_v18 (broadcastInDim S4096x64x1 ![0, 1] bcast_S4096x64_S4096x64x1_0_1 : (⟨S4096x64, .f32⟩ : BufTy).Contents (Elt F) → (⟨S4096x64x1, .f32⟩ : BufTy).Contents (Elt F)),
    unary main_v18 main_v19 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v17 main_v19 main_v20 (mulf : (⟨S4096x64x64, .f32⟩ : BufTy).Contents (Elt F) → (⟨S4096x64x64, .f32⟩ : BufTy).Contents (Elt F) → (⟨S4096x64x64, .f32⟩ : BufTy).Contents (Elt F)),
    reshape main_v20 main_v21 rfl shapeCasts_S4096x64x64_S4096x4096,
    binary main_arg0 main_v21 main_v22 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_arg3 main_v23 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v23 main_arg4 main_v24 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst_4 (constant S_ .f32 0x3F800000#32),
    unary main_cst_4 main_v25 (broadcastInDim S4x2048x4096 ![] bcast_S_S4x2048x4096 : (⟨S_, .f32⟩ : BufTy).Contents (Elt F) → (⟨S4x2048x4096, .f32⟩ : BufTy).Contents (Elt F)),
    binary main_v25 main_v24 main_v26 (mulf : (⟨S4x2048x4096, .f32⟩ : BufTy).Contents (Elt F) → (⟨S4x2048x4096, .f32⟩ : BufTy).Contents (Elt F) → (⟨S4x2048x4096, .f32⟩ : BufTy).Contents (Elt F)),
    binary main_v22 main_v26 main_v27 (addf : (⟨S4x2048x4096, .f32⟩ : BufTy).Contents (Elt F) → (⟨S4x2048x4096, .f32⟩ : BufTy).Contents (Elt F) → (⟨S4x2048x4096, .f32⟩ : BufTy).Contents (Elt F)) ]

/-- @main's operations, in program order. -/
abbrev ops : List (HloOp τ sig (Elt F)) :=
  [
    nullary main_cst (fun i => FloatOps.ofBits .f32 (lit0 (S16.rowMajor i))),
    nullary main_c (constantI S_ 32 15#32),
    unary main_c main_v0 (broadcastInDim S4096x2048 ![] bcast_S_S4096x2048 : (⟨S_, .i32⟩ : BufTy).Contents (Elt F) → (⟨S4096x2048, .i32⟩ : BufTy).Contents (Elt F)),
    binary main_arg1 main_v0 main_v1 (andi : (⟨S4096x2048, .i32⟩ : BufTy).Contents (Elt F) → (⟨S4096x2048, .i32⟩ : BufTy).Contents (Elt F) → (⟨S4096x2048, .i32⟩ : BufTy).Contents (Elt F)),
    nullary main_c_0 (constantI S_ 32 4#32),
    unary main_c_0 main_v2 (broadcastInDim S4096x2048 ![] bcast_S_S4096x2048 : (⟨S_, .i32⟩ : BufTy).Contents (Elt F) → (⟨S4096x2048, .i32⟩ : BufTy).Contents (Elt F)),
    binary main_arg1 main_v2 main_v3 (Host.shrsi : (⟨S4096x2048, .i32⟩ : BufTy).Contents (Elt F) → (⟨S4096x2048, .i32⟩ : BufTy).Contents (Elt F) → (⟨S4096x2048, .i32⟩ : BufTy).Contents (Elt F)),
    nullary main_c_1 (constantI S_ 32 15#32),
    unary main_c_1 main_v4 (broadcastInDim S4096x2048 ![] bcast_S_S4096x2048 : (⟨S_, .i32⟩ : BufTy).Contents (Elt F) → (⟨S4096x2048, .i32⟩ : BufTy).Contents (Elt F)),
    binary main_v3 main_v4 main_v5 (andi : (⟨S4096x2048, .i32⟩ : BufTy).Contents (Elt F) → (⟨S4096x2048, .i32⟩ : BufTy).Contents (Elt F) → (⟨S4096x2048, .i32⟩ : BufTy).Contents (Elt F)),
    unary main_v1 main_v6 (broadcastInDim S4096x2048x1 ![0, 1] bcast_S4096x2048_S4096x2048x1_0_1 : (⟨S4096x2048, .i32⟩ : BufTy).Contents (Elt F) → (⟨S4096x2048x1, .i32⟩ : BufTy).Contents (Elt F)),
    unary main_v5 main_v7 (broadcastInDim S4096x2048x1 ![0, 1] bcast_S4096x2048_S4096x2048x1_0_1 : (⟨S4096x2048, .i32⟩ : BufTy).Contents (Elt F) → (⟨S4096x2048x1, .i32⟩ : BufTy).Contents (Elt F)),
    binary main_v6 main_v7 main_v8 ((fun a b => concatenate S4096x2048x2 2 [⟨S4096x2048x1, a⟩, ⟨S4096x2048x1, b⟩] concatenates_S4096x2048x1_S4096x2048x1_S4096x2048x2_d2) : (⟨S4096x2048x1, .i32⟩ : BufTy).Contents (Elt F) → (⟨S4096x2048x1, .i32⟩ : BufTy).Contents (Elt F) → (⟨S4096x2048x2, .i32⟩ : BufTy).Contents (Elt F)),
    reshape main_v8 main_v9 rfl shapeCasts_S4096x2048x2_S4096x4096,
    nullary main_c_2 (constantI S_ 32 0#32),
    unary main_c_2 main_v10 (broadcastInDim S4096x4096 ![] bcast_S_S4096x4096 : (⟨S_, .i32⟩ : BufTy).Contents (Elt F) → (⟨S4096x4096, .i32⟩ : BufTy).Contents (Elt F)),
    binary main_v9 main_v10 main_v11 (cmpi .slt : (⟨S4096x4096, .i32⟩ : BufTy).Contents (Elt F) → (⟨S4096x4096, .i32⟩ : BufTy).Contents (Elt F) → (⟨S4096x4096, .i1⟩ : BufTy).Contents (Elt F)),
    nullary main_c_3 (constantI S_ 32 16#32),
    unary main_c_3 main_v12 (broadcastInDim S4096x4096 ![] bcast_S_S4096x4096 : (⟨S_, .i32⟩ : BufTy).Contents (Elt F) → (⟨S4096x4096, .i32⟩ : BufTy).Contents (Elt F)),
    binary main_v9 main_v12 main_v13 (addi : (⟨S4096x4096, .i32⟩ : BufTy).Contents (Elt F) → (⟨S4096x4096, .i32⟩ : BufTy).Contents (Elt F) → (⟨S4096x4096, .i32⟩ : BufTy).Contents (Elt F)),
    ternary main_v11 main_v13 main_v9 main_v14 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v14 main_v15 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v15 main_v16 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v16 main_v17 rfl shapeCasts_S4096x4096_S4096x64x64,
    unary main_arg2 main_v18 (broadcastInDim S4096x64x1 ![0, 1] bcast_S4096x64_S4096x64x1_0_1 : (⟨S4096x64, .f32⟩ : BufTy).Contents (Elt F) → (⟨S4096x64x1, .f32⟩ : BufTy).Contents (Elt F)),
    unary main_v18 main_v19 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v17 main_v19 main_v20 (mulf : (⟨S4096x64x64, .f32⟩ : BufTy).Contents (Elt F) → (⟨S4096x64x64, .f32⟩ : BufTy).Contents (Elt F) → (⟨S4096x64x64, .f32⟩ : BufTy).Contents (Elt F)),
    reshape main_v20 main_v21 rfl shapeCasts_S4096x64x64_S4096x4096,
    binary main_arg0 main_v21 main_v22 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_arg3 main_v23 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v23 main_arg4 main_v24 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst_4 (constant S_ .f32 0x3F800000#32),
    unary main_cst_4 main_v25 (broadcastInDim S4x2048x4096 ![] bcast_S_S4x2048x4096 : (⟨S_, .f32⟩ : BufTy).Contents (Elt F) → (⟨S4x2048x4096, .f32⟩ : BufTy).Contents (Elt F)),
    binary main_v25 main_v24 main_v26 (mulf : (⟨S4x2048x4096, .f32⟩ : BufTy).Contents (Elt F) → (⟨S4x2048x4096, .f32⟩ : BufTy).Contents (Elt F) → (⟨S4x2048x4096, .f32⟩ : BufTy).Contents (Elt F)),
    binary main_v22 main_v26 main_v27 (addf : (⟨S4x2048x4096, .f32⟩ : BufTy).Contents (Elt F) → (⟨S4x2048x4096, .f32⟩ : BufTy).Contents (Elt F) → (⟨S4x2048x4096, .f32⟩ : BufTy).Contents (Elt F)) ]

/-- The line is its first thirteen operations followed by the rest. -/
theorem ops_eq : (ops : List (HloOp τ sig (Elt F))) = opsA ++ opsB := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main is the sequence of its operations. -/
theorem main_eq (c : Dev nD) : main (F := F) c = seq ops := rfl
/-- No buffer of the signature is scoped. -/
theorem scopedRefs_eq : (Finset.univ.filter fun b : Ref sig .tc => b.isScoped) = ∅ := by decide
/-- No semaphore of the signature is scoped (there is none). -/
theorem scopedSems_eq : (Finset.univ.filter fun sm : SemLoc sig => sm.isScoped .tc) = ∅ := by decide
/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., binary_bufs_sub .., binary_bufs_sub .., nullary_bufs_sub .., unary_bufs_sub .., binary_bufs_sub .., binary_bufs_sub ..⟩

/-- The result buffer after the whole line, from any contents `V`: the composed term of `V` at the arguments. -/
theorem after_result (V : Valuation τ sig (Elt F)) :
    after ops V (Proc.devRef .tc main_v27)
      = refTerm (V (Proc.devRef .tc main_arg0)) (V (Proc.devRef .tc main_arg1)) (V (Proc.devRef .tc main_arg2))
          (V (Proc.devRef .tc main_arg3)) (V (Proc.devRef .tc main_arg4)) := by
  -- cut the line after the concatenation: what the first part leaves at the codes' buffer, at the table and at
  -- the arguments is read off first; the second part is then read over those contents
  rw [ops_eq, after_append]
  have h8 : after opsA V (Proc.devRef .tc main_v8) = concatenate S4096x2048x2 2
      [⟨S4096x2048x1, broadcastInDim S4096x2048x1 ![0, 1] bcast_S4096x2048_S4096x2048x1_0_1
          (andi (V (Proc.devRef .tc main_arg1)) (broadcastInDim S4096x2048 ![] bcast_S_S4096x2048 (constantI S_ 32 15#32)))⟩,
       ⟨S4096x2048x1, broadcastInDim S4096x2048x1 ![0, 1] bcast_S4096x2048_S4096x2048x1_0_1
          (andi (Host.shrsi (V (Proc.devRef .tc main_arg1)) (broadcastInDim S4096x2048 ![] bcast_S_S4096x2048 (constantI S_ 32 4#32)))
            (broadcastInDim S4096x2048 ![] bcast_S_S4096x2048 (constantI S_ 32 15#32)))⟩]
      concatenates_S4096x2048x1_S4096x2048x1_S4096x2048x2_d2 := by after_results
  have hc : after opsA V (Proc.devRef .tc main_cst) = table (F := F) := by after_results; rfl
  have h0 : after opsA V (Proc.devRef .tc main_arg0) = V (Proc.devRef .tc main_arg0) := by after_results
  have h2 : after opsA V (Proc.devRef .tc main_arg2) = V (Proc.devRef .tc main_arg2) := by after_results
  have h3 : after opsA V (Proc.devRef .tc main_arg3) = V (Proc.devRef .tc main_arg3) := by after_results
  have h4 : after opsA V (Proc.devRef .tc main_arg4) = V (Proc.devRef .tc main_arg4) := by after_results
  generalize after opsA V = W at h8 hc h0 h2 h3 h4 ⊢
  unfold refTerm weightOf lookup codesOf
  after_results_simp
  rw [h8, hc, h0, h2, h3, h4]
  rfl

/-- On every device, at any float instance, from any memory with zero counters: every weakly fair execution of
    @main terminates with the result at `refTerm` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (after_result _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Hand

end
-- ==== Proof.RefValue.lean ====
/-
  The reference's result term, at the ideal values, is the specification's array `Spec.G`, index by index.

  Read at `(p, t, o)`, the term is a sum of two products. The base product is the sum over the hidden axis of the
  activation times the weight at `(o, h)`; that weight is the looked-up level at `(o, h)` times the scale of the
  64-column block holding `h`, because column `h` of a 4096-wide row and place `h % 64` of block `h / 64` are one
  row-major position. The looked-up level is the table's entry at the code: a code is a word masked with 15, so it
  lies below 16, is not negative as a signed word (the wrap by 16 does not act), and indexes the table inside its
  range (the clamp does not act); the table's sixteen entries are the specification's level words, and on a word
  below 16 the specification's chain of comparisons picks exactly that entry. The adapter is the constant word of
  1.0 times the sum over the rank axis of the inner product (over the hidden axis) times `b` at `(o, r)`.
  Each contraction's sum runs over the one-axis contraction shape; it is re-indexed to the axis's literal range,
  and the operand indices are identified coordinate by coordinate.
-/
import proofs.«407890_j13838384628026_1_alg».proof.Proof.RefTerm
import proofs.«407890_j13838384628026_1_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-! ## The codes lie below 16 -/

/-- Every code the reference builds is a word masked with 15. -/
theorem codesOf_lt (q : Vec Ideal S4096x2048 .i32) (j : S4096x4096.Idx) : (codesOf (F := Ideal) q j).toNat < 16 :=
  Cert.Spec.codes_lt q bcast_S_S4096x2048 bcast_S4096x2048_S4096x2048x1_0_1
    concatenates_S4096x2048x1_S4096x2048x1_S4096x2048x2_d2 shapeCasts_S4096x2048x2_S4096x4096 j

/-! ## The lookup -/

/-- A word below 16 is not negative as a signed word, so the wrap by 16 leaves it as it is. -/
theorem wrap_small (c : BitVec 32) (hc : c.toNat < 16) :
    Scalar.select (IntOp.cmpi .slt c 0#32) (IntOp.addi c 16#32) c = c := by
  have hw : c = BitVec.ofNat 32 c.toNat :=
    BitVec.eq_of_toNat_eq (by rw [BitVec.toNat_ofNat]; exact (Nat.mod_eq_of_lt c.isLt).symm)
  generalize c.toNat = n at hc hw
  subst hw
  interval_cases n <;> rfl

/-- Read as a signed integer, a word below 16 is its own value. -/
theorem toInt_toNat_small (c : BitVec 32) (hc : c.toNat < 16) : c.toInt.toNat = c.toNat := by
  rw [BitVec.toInt_eq_toNat_of_lt (by omega)]
  exact Int.toNat_natCast _

/-- The table's entry at position `m` is the level word of `m`. -/
theorem table_apply (m : Fin 16) : table (F := Ideal) (ix1 m) = Ideal.ofBits .f32 (Cert.Spec.levelWord m.val) := by
  have e : S16.rowMajor (ix1 m) = m := Fin.ext (Shape.rowMajor_val_one (ix1 m))
  unfold table
  rw [e]
  obtain ⟨n, hn⟩ := m
  interval_cases n <;> rfl

/-- The looked-up level at `(o, h)` is the level the chain of comparisons picks for the code there. -/
theorem lookup_apply (C : Vec Ideal S4096x4096 .i32) (hC : ∀ j, (C j).toNat < 16) (o h : Fin 4096) :
    lookup (F := Ideal) C (ix2 o h) = Cert.Spec.decSel (C (ix2 o h)) := by
  unfold lookup
  refine (gather_take_apply (N := 16) (R := 4096) (C := 4096) (by decide)
    gather_S16_S4096x4096x1_S4096x4096_n_0_n_n_0_2_1_wf (table (F := Ideal)) _ (ix2 o h)).trans ?_
  rw [table_apply]
  have hidx : (broadcastInDim S4096x4096x1 ![0, 1] bcast_S4096x4096_S4096x4096x1_0_1
      (select (cmpi .slt C (broadcastInDim S4096x4096 ![] bcast_S_S4096x4096 (constantI S_ 32 0#32)))
        (addi C (broadcastInDim S4096x4096 ![] bcast_S_S4096x4096 (constantI S_ 32 16#32))) C))
      (takeIdx (ix2 o h)) = C (ix2 o h) := by
    rw [broadcastInDim_apply _ _ _ (takeIdx (ix2 o h)) (ix2 o h)
      (fun a => match a with | ⟨0, _⟩ => rfl | ⟨1, _⟩ => rfl)]
    exact wrap_small _ (hC _)
  rw [Cert.Spec.decSel_eq_level _ (hC _)]
  show Ideal.ofBits .f32 (Cert.Spec.levelWord (min _ 15)) = _
  rw [hidx, toInt_toNat_small _ (hC _), Nat.min_eq_left (by have := hC (ix2 o h); omega)]

/-! ## The scaled matrix -/

/-- Column `h` of a 4096-wide row sits in 64-block `h / 64` at place `h % 64`: the two arrangements of the row-major
    position. -/
theorem blockPos (o h : Fin 4096) (hb : h.val / 64 < 64) (hl : h.val % 64 < 64) :
    (S4096x64x64.rowMajor (ix3 o ⟨h.val / 64, hb⟩ ⟨h.val % 64, hl⟩)).val = (S4096x4096.rowMajor (ix2 o h)).val := by
  rw [Shape.rowMajor_val_three, Shape.rowMajor_val_two]
  show (o.val * 64 + h.val / 64) * 64 + h.val % 64 = o.val * 4096 + h.val
  omega

/-- The dequantized weight at `(o, h)`: the level there times the scale of row `o`'s block `h / 64`. -/
theorem weightOf_apply (g : Vec Ideal S4096x4096 .f32) (s : Vec Ideal S4096x64 .f32) (o h : Fin 4096) :
    weightOf (F := Ideal) g s (ix2 o h)
      = g (ix2 o h) * s (ix2 o ⟨h.val / 64, by have := h.isLt; omega⟩) := by
  have hb : h.val / 64 < 64 := by have := h.isLt; omega
  have hl : h.val % 64 < 64 := Nat.mod_lt _ (by decide)
  unfold weightOf
  rw [shapeCast_apply _ _ (ix2 o h) (ix3 o ⟨h.val / 64, hb⟩ ⟨h.val % 64, hl⟩) (blockPos o h hb hl)]
  rw [mulf_apply]
  rw [shapeCast_apply g _ (ix3 o ⟨h.val / 64, hb⟩ ⟨h.val % 64, hl⟩) (ix2 o h) (blockPos o h hb hl).symm]
  rw [broadcastInDim_apply _ _ _ (ix3 o ⟨h.val / 64, hb⟩ ⟨h.val % 64, hl⟩)
    (ix3 o (⟨h.val / 64, hb⟩ : Fin 64) (⟨0, Nat.one_pos⟩ : Fin 1))
    (fun a => match a with | ⟨0, _⟩ => rfl | ⟨1, _⟩ => rfl | ⟨2, _⟩ => rfl)]
  rw [broadcastInDim_apply _ _ _ (ix3 o (⟨h.val / 64, hb⟩ : Fin 64) (⟨0, Nat.one_pos⟩ : Fin 1))
    (ix2 o (⟨h.val / 64, hb⟩ : Fin 64))
    (fun a => match a with | ⟨0, _⟩ => rfl | ⟨1, _⟩ => rfl)]

/-! ## The three contractions, read at an index -/

/-! ### The base product: activations `[4, 2048, 4096]` against the weight matrix `[4096, 4096]`, both contracted on the hidden axis -/

theorem lhsBase_0 (j : S4x2048x4096.Idx) (k : dot_S4x2048x4096_S4096x4096_S4x2048x4096_2_1_01_0_n_n.contr.Idx) :
    (dot_S4x2048x4096_S4096x4096_S4x2048x4096_2_1_01_0_n_n.lhsIdx j k 0 : ℕ) = j 0 := by
  simp [DotDims.lhsIdx, dot_S4x2048x4096_S4096x4096_S4x2048x4096_2_1_01_0_n_n]; rfl
theorem lhsBase_1 (j : S4x2048x4096.Idx) (k : dot_S4x2048x4096_S4096x4096_S4x2048x4096_2_1_01_0_n_n.contr.Idx) :
    (dot_S4x2048x4096_S4096x4096_S4x2048x4096_2_1_01_0_n_n.lhsIdx j k 1 : ℕ) = j 1 := by
  simp [DotDims.lhsIdx, dot_S4x2048x4096_S4096x4096_S4x2048x4096_2_1_01_0_n_n]; rfl
theorem lhsBase_2 (j : S4x2048x4096.Idx) (k : dot_S4x2048x4096_S4096x4096_S4x2048x4096_2_1_01_0_n_n.contr.Idx) :
    (dot_S4x2048x4096_S4096x4096_S4x2048x4096_2_1_01_0_n_n.lhsIdx j k 2 : ℕ) = k ⟨0, by decide⟩ :=
  dot_S4x2048x4096_S4096x4096_S4x2048x4096_2_1_01_0_n_n.lhsIdx_val_of_single rfl j k
theorem rhsBase_0 (j : S4x2048x4096.Idx) (k : dot_S4x2048x4096_S4096x4096_S4x2048x4096_2_1_01_0_n_n.contr.Idx) :
    (dot_S4x2048x4096_S4096x4096_S4x2048x4096_2_1_01_0_n_n.rhsIdx j k 0 : ℕ) = j 2 := by
  simp [DotDims.rhsIdx, dot_S4x2048x4096_S4096x4096_S4x2048x4096_2_1_01_0_n_n]; rfl
theorem rhsBase_1 (j : S4x2048x4096.Idx) (k : dot_S4x2048x4096_S4096x4096_S4x2048x4096_2_1_01_0_n_n.contr.Idx) :
    (dot_S4x2048x4096_S4096x4096_S4x2048x4096_2_1_01_0_n_n.rhsIdx j k 1 : ℕ) = k ⟨0, by decide⟩ :=
  dot_S4x2048x4096_S4096x4096_S4x2048x4096_2_1_01_0_n_n.rhsIdx_val_of_single rfl j k

/-- The product read at `(p, t, c)`: the sum over the contracted axis of the left operand's row times the right
    operand's row. -/
theorem dotBase_apply (l : FVec Ideal S4x2048x4096 .f32) (r : FVec Ideal S4096x4096 .f32) (p : Fin 4) (t : Fin 2048) (c : Fin 4096) :
    Host.dotGeneral (F := Ideal) dot_S4x2048x4096_S4096x4096_S4x2048x4096_2_1_01_0_n_n none l r (ix3 p t c)
      = ∑ k : Fin 4096, l (ix3 p t k) * r (ix2 c k) := by
  simp only [Host.dotGeneral]
  rw [Ideal.dotGeneral_apply]
  rw [← Equiv.sum_comp (contrEquiv1 dot_S4x2048x4096_S4096x4096_S4x2048x4096_2_1_01_0_n_n 4096 rfl rfl).symm]
  refine Finset.sum_congr rfl fun k _ => ?_
  have hl : dot_S4x2048x4096_S4096x4096_S4x2048x4096_2_1_01_0_n_n.lhsIdx (ix3 p t c)
      ((contrEquiv1 dot_S4x2048x4096_S4096x4096_S4x2048x4096_2_1_01_0_n_n 4096 rfl rfl).symm k) = ix3 p t k := by
    funext a
    refine Fin.ext ?_
    match a with
    | ⟨0, _⟩ => exact lhsBase_0 _ _
    | ⟨1, _⟩ => exact lhsBase_1 _ _
    | ⟨2, _⟩ => exact (lhsBase_2 _ _).trans (contrEquiv1_symm_val dot_S4x2048x4096_S4096x4096_S4x2048x4096_2_1_01_0_n_n 4096 rfl rfl k)
  have hr : dot_S4x2048x4096_S4096x4096_S4x2048x4096_2_1_01_0_n_n.rhsIdx (ix3 p t c)
      ((contrEquiv1 dot_S4x2048x4096_S4096x4096_S4x2048x4096_2_1_01_0_n_n 4096 rfl rfl).symm k) = ix2 c k := by
    funext a
    refine Fin.ext ?_
    match a with
    | ⟨0, _⟩ => exact rhsBase_0 _ _
    | ⟨1, _⟩ => exact (rhsBase_1 _ _).trans (contrEquiv1_symm_val dot_S4x2048x4096_S4096x4096_S4x2048x4096_2_1_01_0_n_n 4096 rfl rfl k)
  rw [hl, hr]

/-! ### The adapter's first product: activations `[4, 2048, 4096]` against `a : [16, 4096]`, both contracted on the hidden axis -/

theorem lhsInner_0 (j : S4x2048x16.Idx) (k : dot_S4x2048x4096_S16x4096_S4x2048x16_2_1_01_0_n_n.contr.Idx) :
    (dot_S4x2048x4096_S16x4096_S4x2048x16_2_1_01_0_n_n.lhsIdx j k 0 : ℕ) = j 0 := by
  simp [DotDims.lhsIdx, dot_S4x2048x4096_S16x4096_S4x2048x16_2_1_01_0_n_n]; rfl
theorem lhsInner_1 (j : S4x2048x16.Idx) (k : dot_S4x2048x4096_S16x4096_S4x2048x16_2_1_01_0_n_n.contr.Idx) :
    (dot_S4x2048x4096_S16x4096_S4x2048x16_2_1_01_0_n_n.lhsIdx j k 1 : ℕ) = j 1 := by
  simp [DotDims.lhsIdx, dot_S4x2048x4096_S16x4096_S4x2048x16_2_1_01_0_n_n]; rfl
theorem lhsInner_2 (j : S4x2048x16.Idx) (k : dot_S4x2048x4096_S16x4096_S4x2048x16_2_1_01_0_n_n.contr.Idx) :
    (dot_S4x2048x4096_S16x4096_S4x2048x16_2_1_01_0_n_n.lhsIdx j k 2 : ℕ) = k ⟨0, by decide⟩ :=
  dot_S4x2048x4096_S16x4096_S4x2048x16_2_1_01_0_n_n.lhsIdx_val_of_single rfl j k
theorem rhsInner_0 (j : S4x2048x16.Idx) (k : dot_S4x2048x4096_S16x4096_S4x2048x16_2_1_01_0_n_n.contr.Idx) :
    (dot_S4x2048x4096_S16x4096_S4x2048x16_2_1_01_0_n_n.rhsIdx j k 0 : ℕ) = j 2 := by
  simp [DotDims.rhsIdx, dot_S4x2048x4096_S16x4096_S4x2048x16_2_1_01_0_n_n]; rfl
theorem rhsInner_1 (j : S4x2048x16.Idx) (k : dot_S4x2048x4096_S16x4096_S4x2048x16_2_1_01_0_n_n.contr.Idx) :
    (dot_S4x2048x4096_S16x4096_S4x2048x16_2_1_01_0_n_n.rhsIdx j k 1 : ℕ) = k ⟨0, by decide⟩ :=
  dot_S4x2048x4096_S16x4096_S4x2048x16_2_1_01_0_n_n.rhsIdx_val_of_single rfl j k

/-- The product read at `(p, t, c)`: the sum over the contracted axis of the left operand's row times the right
    operand's row. -/
theorem dotInner_apply (l : FVec Ideal S4x2048x4096 .f32) (r : FVec Ideal S16x4096 .f32) (p : Fin 4) (t : Fin 2048) (c : Fin 16) :
    Host.dotGeneral (F := Ideal) dot_S4x2048x4096_S16x4096_S4x2048x16_2_1_01_0_n_n none l r (ix3 p t c)
      = ∑ k : Fin 4096, l (ix3 p t k) * r (ix2 c k) := by
  simp only [Host.dotGeneral]
  rw [Ideal.dotGeneral_apply]
  rw [← Equiv.sum_comp (contrEquiv1 dot_S4x2048x4096_S16x4096_S4x2048x16_2_1_01_0_n_n 4096 rfl rfl).symm]
  refine Finset.sum_congr rfl fun k _ => ?_
  have hl : dot_S4x2048x4096_S16x4096_S4x2048x16_2_1_01_0_n_n.lhsIdx (ix3 p t c)
      ((contrEquiv1 dot_S4x2048x4096_S16x4096_S4x2048x16_2_1_01_0_n_n 4096 rfl rfl).symm k) = ix3 p t k := by
    funext a
    refine Fin.ext ?_
    match a with
    | ⟨0, _⟩ => exact lhsInner_0 _ _
    | ⟨1, _⟩ => exact lhsInner_1 _ _
    | ⟨2, _⟩ => exact (lhsInner_2 _ _).trans (contrEquiv1_symm_val dot_S4x2048x4096_S16x4096_S4x2048x16_2_1_01_0_n_n 4096 rfl rfl k)
  have hr : dot_S4x2048x4096_S16x4096_S4x2048x16_2_1_01_0_n_n.rhsIdx (ix3 p t c)
      ((contrEquiv1 dot_S4x2048x4096_S16x4096_S4x2048x16_2_1_01_0_n_n 4096 rfl rfl).symm k) = ix2 c k := by
    funext a
    refine Fin.ext ?_
    match a with
    | ⟨0, _⟩ => exact rhsInner_0 _ _
    | ⟨1, _⟩ => exact (rhsInner_1 _ _).trans (contrEquiv1_symm_val dot_S4x2048x4096_S16x4096_S4x2048x16_2_1_01_0_n_n 4096 rfl rfl k)
  rw [hl, hr]

/-! ### The adapter's second product: `[4, 2048, 16]` against `b : [4096, 16]`, both contracted on the rank axis -/

theorem lhsOuter_0 (j : S4x2048x4096.Idx) (k : dot_S4x2048x16_S4096x16_S4x2048x4096_2_1_01_0_n_n.contr.Idx) :
    (dot_S4x2048x16_S4096x16_S4x2048x4096_2_1_01_0_n_n.lhsIdx j k 0 : ℕ) = j 0 := by
  simp [DotDims.lhsIdx, dot_S4x2048x16_S4096x16_S4x2048x4096_2_1_01_0_n_n]; rfl
theorem lhsOuter_1 (j : S4x2048x4096.Idx) (k : dot_S4x2048x16_S4096x16_S4x2048x4096_2_1_01_0_n_n.contr.Idx) :
    (dot_S4x2048x16_S4096x16_S4x2048x4096_2_1_01_0_n_n.lhsIdx j k 1 : ℕ) = j 1 := by
  simp [DotDims.lhsIdx, dot_S4x2048x16_S4096x16_S4x2048x4096_2_1_01_0_n_n]; rfl
theorem lhsOuter_2 (j : S4x2048x4096.Idx) (k : dot_S4x2048x16_S4096x16_S4x2048x4096_2_1_01_0_n_n.contr.Idx) :
    (dot_S4x2048x16_S4096x16_S4x2048x4096_2_1_01_0_n_n.lhsIdx j k 2 : ℕ) = k ⟨0, by decide⟩ :=
  dot_S4x2048x16_S4096x16_S4x2048x4096_2_1_01_0_n_n.lhsIdx_val_of_single rfl j k
theorem rhsOuter_0 (j : S4x2048x4096.Idx) (k : dot_S4x2048x16_S4096x16_S4x2048x4096_2_1_01_0_n_n.contr.Idx) :
    (dot_S4x2048x16_S4096x16_S4x2048x4096_2_1_01_0_n_n.rhsIdx j k 0 : ℕ) = j 2 := by
  simp [DotDims.rhsIdx, dot_S4x2048x16_S4096x16_S4x2048x4096_2_1_01_0_n_n]; rfl
theorem rhsOuter_1 (j : S4x2048x4096.Idx) (k : dot_S4x2048x16_S4096x16_S4x2048x4096_2_1_01_0_n_n.contr.Idx) :
    (dot_S4x2048x16_S4096x16_S4x2048x4096_2_1_01_0_n_n.rhsIdx j k 1 : ℕ) = k ⟨0, by decide⟩ :=
  dot_S4x2048x16_S4096x16_S4x2048x4096_2_1_01_0_n_n.rhsIdx_val_of_single rfl j k

/-- The product read at `(p, t, c)`: the sum over the contracted axis of the left operand's row times the right
    operand's row. -/
theorem dotOuter_apply (l : FVec Ideal S4x2048x16 .f32) (r : FVec Ideal S4096x16 .f32) (p : Fin 4) (t : Fin 2048) (c : Fin 4096) :
    Host.dotGeneral (F := Ideal) dot_S4x2048x16_S4096x16_S4x2048x4096_2_1_01_0_n_n none l r (ix3 p t c)
      = ∑ k : Fin 16, l (ix3 p t k) * r (ix2 c k) := by
  simp only [Host.dotGeneral]
  rw [Ideal.dotGeneral_apply]
  rw [← Equiv.sum_comp (contrEquiv1 dot_S4x2048x16_S4096x16_S4x2048x4096_2_1_01_0_n_n 16 rfl rfl).symm]
  refine Finset.sum_congr rfl fun k _ => ?_
  have hl : dot_S4x2048x16_S4096x16_S4x2048x4096_2_1_01_0_n_n.lhsIdx (ix3 p t c)
      ((contrEquiv1 dot_S4x2048x16_S4096x16_S4x2048x4096_2_1_01_0_n_n 16 rfl rfl).symm k) = ix3 p t k := by
    funext a
    refine Fin.ext ?_
    match a with
    | ⟨0, _⟩ => exact lhsOuter_0 _ _
    | ⟨1, _⟩ => exact lhsOuter_1 _ _
    | ⟨2, _⟩ => exact (lhsOuter_2 _ _).trans (contrEquiv1_symm_val dot_S4x2048x16_S4096x16_S4x2048x4096_2_1_01_0_n_n 16 rfl rfl k)
  have hr : dot_S4x2048x16_S4096x16_S4x2048x4096_2_1_01_0_n_n.rhsIdx (ix3 p t c)
      ((contrEquiv1 dot_S4x2048x16_S4096x16_S4x2048x4096_2_1_01_0_n_n 16 rfl rfl).symm k) = ix2 c k := by
    funext a
    refine Fin.ext ?_
    match a with
    | ⟨0, _⟩ => exact rhsOuter_0 _ _
    | ⟨1, _⟩ => exact (rhsOuter_1 _ _).trans (contrEquiv1_symm_val dot_S4x2048x16_S4096x16_S4x2048x4096_2_1_01_0_n_n 16 rfl rfl k)
  rw [hl, hr]

/-! ## The result -/

/-- At the ideal values the reference's term is the specification's result of the same arrays, the codes carried as
    the program builds them. -/
theorem refTerm_eq (x : Vec Ideal S4x2048x4096 .f32) (q : Vec Ideal S4096x2048 .i32) (s : Vec Ideal S4096x64 .f32)
    (a : Vec Ideal S16x4096 .f32) (b : Vec Ideal S4096x16 .f32) :
    refTerm (F := Ideal) x q s a b = Cert.Spec.G x (codesOf (F := Ideal) q) s a b := by
  funext i
  obtain ⟨p, t, o, rfl⟩ : ∃ (p : Fin 4) (t : Fin 2048) (o : Fin 4096), i = ix3 p t o := ⟨i 0, i 1, i 2, eq_ix3 i⟩
  rw [Cert.Spec.G_apply]
  unfold Cert.Spec.out refTerm
  rw [addf_apply, mulf_apply, dotBase_apply, dotOuter_apply]
  -- the base product's summands: the scaled looked-up level is the specification's weight
  have hbase : (∑ k : Fin 4096, x (ix3 p t k) * weightOf (lookup (codesOf (F := Ideal) q)) s (ix2 o k))
      = ∑ h : Fin 4096, x (ix3 p t h) * Cert.Spec.weight (codesOf (F := Ideal) q) s o h :=
    Finset.sum_congr rfl fun h _ => by
      rw [weightOf_apply, lookup_apply _ (codesOf_lt q)]
      rfl
  -- the adapter's summands: the inner product read at `(p, t, r)`
  have hadapt : (∑ k : Fin 16, Host.dotGeneral (F := Ideal) dot_S4x2048x4096_S16x4096_S4x2048x16_2_1_01_0_n_n none x a
        (ix3 p t k) * b (ix2 o k))
      = ∑ r : Fin 16, (∑ h : Fin 4096, x (ix3 p t h) * a (ix2 r h)) * b (ix2 o r) :=
    Finset.sum_congr rfl fun r _ => by rw [dotInner_apply]
  rw [hbase, hadapt]
  rfl

end Cert.ReferenceIdeal.Hand

end
-- ==== Proof.lean ====
/-
  A 4-bit-quantized linear layer with a rank-16 adapter, two ways.

  Both programs unpack two 4-bit codes from every packed word (low nibble, then high nibble), decode each code to one
  of sixteen fixed levels, scale every 64-column block of a row by that block's scale, multiply the activations by the
  resulting 4096 × 4096 matrix, and add the adapter `(x · aᵀ) · bᵀ` weighted by 1.0:
      out[p, t, o] = Σ_h x[p,t,h] · level(code[o,h]) · scale[o, h/64]  +  1.0 · Σ_r (Σ_h x[p,t,h] · a[r,h]) · b[o,r].
  The kernel decodes by a chain of sixteen comparisons, one tile of 512 output columns at a time, once per tile (kept in
  a scratch buffer while the sixteen tiles of activation rows pass), on activations flattened to 8192 rows; the reference
  decodes by a table lookup over the whole matrix and contracts the three-axis activations directly. Every code is a
  word masked with 15, so the comparisons and the lookup pick the same level; the sums are the same sums term by term;
  at the ideal values a change of float format is the identity. No law that needs finiteness is used, so the
  precondition is never opened.
-/
import proofs.«407890_j13838384628026_1_alg».proof.Defs
import proofs.«407890_j13838384628026_1_alg».proof.Proof.Gen.Kernel
import proofs.«407890_j13838384628026_1_alg».proof.Proof.Gen.Kernel.Skeleton
import proofs.«407890_j13838384628026_1_alg».proof.Proof.Gen.Kernel.Launch
import proofs.«407890_j13838384628026_1_alg».proof.Proof.Gen.Kernel.Points
import proofs.«407890_j13838384628026_1_alg».proof.Proof.Gen.Kernel.Frame
import proofs.«407890_j13838384628026_1_alg».proof.Proof.Gen.KernelIdeal
import proofs.«407890_j13838384628026_1_alg».proof.Proof.Gen.KernelIdeal.Skeleton
import proofs.«407890_j13838384628026_1_alg».proof.Proof.Gen.KernelIdeal.Launch
import proofs.«407890_j13838384628026_1_alg».proof.Proof.Gen.KernelIdeal.Points
import proofs.«407890_j13838384628026_1_alg».proof.Proof.Gen.KernelIdeal.Frame
import proofs.«407890_j13838384628026_1_alg».proof.Proof.Gen.ReferenceIdeal
import proofs.«407890_j13838384628026_1_alg».proof.Proof.Gen.Pre_finite_inputs
import proofs.«407890_j13838384628026_1_alg».proof.Proof.KFinal
import proofs.«407890_j13838384628026_1_alg».proof.Proof.RefRun
import proofs.«407890_j13838384628026_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Nothing was rewritten between the kernel program and its reading at the ideal values. -/
theorem preserves : Cert.preserves_Kernel_KernelIdeal := trivial

/-- At the ideal values both programs end at the same array of arguments that agree: the kernel's run ends at the
    specification's array, the reference's at its composed term, which is that array index by index. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact Cert.ReferenceIdeal.Hand.refTerm_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
